-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x160 : Shape := ⟨3, ![16, 2048, 160]⟩
abbrev S160x160 : Shape := ⟨2, ![160, 160]⟩
abbrev S160 : Shape := ⟨1, ![160]⟩
abbrev S_ : Shape := ⟨0, ![]⟩

class Facts : Prop where
  bcast_S_S16x2048x160 : S_.BroadcastsInDim S16x2048x160 (![] : Fin 0 → Fin S16x2048x160.rank)
  reducesTo_S16x2048x160_S_d0_1_2 : S16x2048x160.ReducesTo [0, 1, 2] S_
  h_S_ : 0 < S_.numel
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_

variable [Facts]

def fn_part2 {F : FTy → Type} [FloatOps F] (main_arg7 : FVec F S160 .f32) (main_v33 : IVec S_ 1) : IVec S_ 1 :=
  let main_v34 : FVec F S160 .f32 := Host.absf main_arg7
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  main_v38

def fn_part1 {F : FTy → Type} [FloatOps F] (main_arg4 : FVec F S160x160 .f32) (main_arg5 : FVec F S160 .f32) (main_arg6 : FVec F S160x160 .f32) (main_arg7 : FVec F S160 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160x160 .f32 := Host.absf main_arg4
  let main_cst_6 : FVec F S_ .f32 := constant S_ .f32 0x7F800000#32
  let main_v20 : FVec F S160x160 .f32 := broadcastInDim S160x160 ![] bcast_S_S160x160 main_cst_6
  let main_v21 : IVec S160x160 1 := cmpf .olt main_v19 main_v20
  let main_c_7 : IVec S_ 1 := constantI S_ 1 1#1
  let main_v22 : IVec S_ 1 := (fun x v => Host.reduce IntOp.andi x v reducesTo_S160x160_S_d0_1 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160x160 .f32 := Host.absf main_arg6
  let main_cst_10 : FVec F S_ .f32 := constant S_ .f32 0x7F800000#32
  let main_v30 : FVec F S160x160 .f32 := broadcastInDim S160x160 ![] bcast_S_S160x160 main_cst_10
  let main_v31 : IVec S160x160 1 := cmpf .olt main_v29 main_v30
  let main_c_11 : IVec S_ 1 := constantI S_ 1 1#1
  let main_v32 : IVec S_ 1 := (fun x v => Host.reduce IntOp.andi x v reducesTo_S160x160_S_d0_1 h_S_) main_v31 main_c_11
  let main_v33 : IVec S_ 1 := andi main_v28 main_v32
  fn_part2 (F := F) main_arg7 main_v33

def fn {F : FTy → Type} [FloatOps F] (main_arg0 : FVec F S16x2048x160 .f32) (main_arg1 : FVec F S16x2048x160 .f32) (main_arg2 : FVec F S160x160 .f32) (main_arg3 : FVec F S160 .f32) (main_arg4 : FVec F S160x160 .f32) (main_arg5 : FVec F S160 .f32) (main_arg6 : FVec F S160x160 .f32) (main_arg7 : FVec F S160 .f32) : IVec S_ 1 :=
  let main_v0 : FVec F S16x2048x160 .f32 := Host.absf main_arg0
  let main_cst : FVec F S_ .f32 := constant S_ .f32 0x7F800000#32
  let main_v1 : FVec F S16x2048x160 .f32 := broadcastInDim S16x2048x160 ![] bcast_S_S16x2048x160 main_cst
  let main_v2 : IVec S16x2048x160 1 := cmpf .olt main_v0 main_v1
  let main_c : IVec S_ 1 := constantI S_ 1 1#1
  let main_v3 : IVec S_ 1 := (fun x v => Host.reduce IntOp.andi x v reducesTo_S16x2048x160_S_d0_1_2 h_S_) main_v2 main_c
  let main_v4 : FVec F S16x2048x160 .f32 := Host.absf main_arg1
  let main_cst_0 : FVec F S_ .f32 := constant S_ .f32 0x7F800000#32
  let main_v5 : FVec F S16x2048x160 .f32 := broadcastInDim S16x2048x160 ![] bcast_S_S16x2048x160 main_cst_0
  let main_v6 : IVec S16x2048x160 1 := cmpf .olt main_v4 main_v5
  let main_c_1 : IVec S_ 1 := constantI S_ 1 1#1
  let main_v7 : IVec S_ 1 := (fun x v => Host.reduce IntOp.andi x v reducesTo_S16x2048x160_S_d0_1_2 h_S_) main_v6 main_c_1
  let main_v8 : IVec S_ 1 := andi main_v3 main_v7
  let main_v9 : FVec F S160x160 .f32 := Host.absf main_arg2
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg3
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg4 main_arg5 main_arg6 main_arg7 main_v13 main_v16
-- ==== Kernel.lean ====
abbrev S16x2048x160 : Shape := ⟨3, ![16, 2048, 160]⟩
abbrev S160x160 : Shape := ⟨2, ![160, 160]⟩
abbrev S160 : Shape := ⟨1, ![160]⟩
abbrev S1x160 : Shape := ⟨2, ![1, 160]⟩
abbrev S1x512x160 : Shape := ⟨3, ![1, 512, 160]⟩
abbrev S512x160 : Shape := ⟨2, ![512, 160]⟩
abbrev S1x1024x160 : Shape := ⟨3, ![1, 1024, 160]⟩
abbrev S1x2048x160 : Shape := ⟨3, ![1, 2048, 160]⟩
abbrev S1024x160 : Shape := ⟨2, ![1024, 160]⟩
abbrev S2048x160 : Shape := ⟨2, ![2048, 160]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 14
  | .vmem => 20
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S1x160, .f32⟩
  | .hbm, ⟨9, _⟩ => ⟨S1x160, .f32⟩
  | .hbm, ⟨10, _⟩ => ⟨S1x160, .f32⟩
  | .hbm, ⟨11, _⟩ => ⟨S16x2048x160, .bf16⟩
  | .hbm, ⟨12, _⟩ => ⟨S16x2048x160, .bf16⟩
  | .hbm, ⟨13, _⟩ => ⟨S16x2048x160, .f32⟩
  | .local _ .vmem, ⟨0, _⟩ => ⟨S1x512x160, .f32⟩
  | .local _ .vmem, ⟨1, _⟩ => ⟨S1x512x160, .f32⟩
  | .local _ .vmem, ⟨2, _⟩ => ⟨S160x160, .f32⟩
  | .local _ .vmem, ⟨3, _⟩ => ⟨S1x160, .f32⟩
  | .local _ .vmem, ⟨4, _⟩ => ⟨S160x160, .f32⟩
  | .local _ .vmem, ⟨5, _⟩ => ⟨S1x160, .f32⟩
  | .local _ .vmem, ⟨6, _⟩ => ⟨S1x512x160, .bf16⟩
  | .local _ .vmem, ⟨7, _⟩ => ⟨S1x512x160, .bf16⟩
  | .local _ .vmem, ⟨8, _⟩ => ⟨S1x512x160, .bf16⟩
  | .local _ .vmem, ⟨9, _⟩ => ⟨S1x512x160, .bf16⟩
  | .local _ .vmem, ⟨10, _⟩ => ⟨S1x1024x160, .f32⟩
  | .local _ .vmem, ⟨11, _⟩ => ⟨S1x1024x160, .f32⟩
  | .local _ .vmem, ⟨12, _⟩ => ⟨S160x160, .f32⟩
  | .local _ .vmem, ⟨13, _⟩ => ⟨S1x160, .f32⟩
  | .local _ .vmem, ⟨14, _⟩ => ⟨S1x2048x160, .bf16⟩
  | .local _ .vmem, ⟨15, _⟩ => ⟨S1x2048x160, .bf16⟩
  | .local _ .vmem, ⟨16, _⟩ => ⟨S1x2048x160, .bf16⟩
  | .local _ .vmem, ⟨17, _⟩ => ⟨S1x2048x160, .bf16⟩
  | .local _ .vmem, ⟨18, _⟩ => ⟨S1x1024x160, .f32⟩
  | .local _ .vmem, ⟨19, _⟩ => ⟨S1x1024x160, .f32⟩
  | _, _ => ⟨S16x2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x160 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x160 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S160x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x160 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x160 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S160_S1x160 : S160.ShapeCasts S1x160
  inb_S1x512x160_S1x512x160_0_0_0 : ∀ a, (![0, 0, 0] : Fin 3 → Nat) a + S1x512x160.size a ≤ S1x512x160.size a
  h_S1x512x160 : 0 < S1x512x160.numel
  shapeCasts_S1x512x160_S512x160 : S1x512x160.ShapeCasts S512x160
  inb_S160x160_S160x160_0_0 : ∀ a, (![0, 0] : Fin 2 → Nat) a + S160x160.size a ≤ S160x160.size a
  h_S160x160 : 0 < S160x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S512x160 : S1x160.Broadcasts S512x160
  bitsLt_bf16_f32 : FTy.bits .bf16 < FTy.bits .f32
  shapeCasts_S512x160_S1x512x160 : S512x160.ShapeCasts S1x512x160
  packedbf16_S1x512x160_S1x512x160_0_0_0 : (Rect.unit (s := S1x512x160) ![0, 0, 0] S1x512x160.size inb_S1x512x160_S1x512x160_0_0_0).PackedRows (EltTy.packing .bf16)
  inb_S1x1024x160_S1x1024x160_0_0_0 : ∀ a, (![0, 0, 0] : Fin 3 → Nat) a + S1x1024x160.size a ≤ S1x1024x160.size a
  h_S1x1024x160 : 0 < S1x1024x160.numel
  shapeCasts_S1x1024x160_S1024x160 : S1x1024x160.ShapeCasts S1024x160
  broadcasts_S1x160_S1024x160 : S1x160.Broadcasts S1024x160
  inb_S1x2048x160_S1x2048x160_0_0_0 : ∀ a, (![0, 0, 0] : Fin 3 → Nat) a + S1x2048x160.size a ≤ S1x2048x160.size a
  h_S1x2048x160 : 0 < S1x2048x160.numel
  shapeCasts_S1x2048x160_S2048x160 : S1x2048x160.ShapeCasts S2048x160
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x160 : S1024x1.Broadcasts S1024x160
  shapeCasts_S1024x160_S1x1024x160 : S1024x160.ShapeCasts S1x1024x160
  dot_S512x160_S160x160_S512x160_1_0_0_1_n_n_wf : DotDims.WF S512x160 S160x160 S512x160 [1] [0] [0] [1] [] []
  dot_S1024x160_S160x160_S1024x160_1_0_0_1_n_n_wf : DotDims.WF S1024x160 S160x160 S1024x160 [1] [0] [0] [1] [] []
  dot_S1024x160_S2048x160_S1024x2048_1_1_0_0_n_n_wf : DotDims.WF S1024x160 S2048x160 S1024x2048 [1] [1] [0] [0] [] []
  dot_S1024x2048_S2048x160_S1024x160_1_0_0_1_n_n_wf : DotDims.WF S1024x2048 S2048x160 S1024x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x160.size a ≤ S16x2048x160.size a
  hwx0_0 : ∀ i : grid0.Coords, EltTy.bits .f32 = 32 ∨ (Rect.block (s := S16x2048x160) S1x512x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x160.size a ≤ S160x160.size a
  hwx0_1 : ∀ i : grid0.Coords, EltTy.bits .f32 = 32 ∨ (Rect.block (s := S160x160) S160x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x160.size a ≤ S160x160.size a
  hwx0_3 : ∀ i : grid0.Coords, EltTy.bits .f32 = 32 ∨ (Rect.block (s := S160x160) S160x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x160.size a ≤ S16x2048x160.size a
  hwx0_5 : ∀ i : grid0.Coords, EltTy.bits .bf16 = 32 ∨ (Rect.block (s := S16x2048x160) S1x512x160.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x160.size a ≤ S16x2048x160.size a
  hwx0_6 : ∀ i : grid0.Coords, EltTy.bits .bf16 = 32 ∨ (Rect.block (s := S16x2048x160) S1x512x160.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x160.size a ≤ S16x2048x160.size a
  hwx1_0 : ∀ i : grid1.Coords, EltTy.bits .f32 = 32 ∨ (Rect.block (s := S16x2048x160) S1x1024x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x160.size a ≤ S160x160.size a
  hwx1_1 : ∀ i : grid1.Coords, EltTy.bits .f32 = 32 ∨ (Rect.block (s := S160x160) S160x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x160.size a ≤ S1x160.size a
  hwx1_2 : ∀ i : grid1.Coords, EltTy.bits .f32 = 32 ∨ (Rect.block (s := S1x160) S1x160.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x160.size a ≤ S16x2048x160.size a
  hwx1_3 : ∀ i : grid1.Coords, EltTy.bits .bf16 = 32 ∨ (Rect.block (s := S16x2048x160) S1x2048x160.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x160.size a ≤ S16x2048x160.size a
  hwx1_4 : ∀ i : grid1.Coords, EltTy.bits .bf16 = 32 ∨ (Rect.block (s := S16x2048x160) S1x2048x160.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x160.size a ≤ S16x2048x160.size a
  hwx1_5 : ∀ i : grid1.Coords, EltTy.bits .f32 = 32 ∨ (Rect.block (s := S16x2048x160) S1x1024x160.size (cc1_transform_5 i) (hinb1_5 i)).WholeWords (EltTy.packing .f32)

variable [Facts₀]

def dot_S512x160_S160x160_S512x160_1_0_0_1_n_n : DotDims S512x160 S160x160 S512x160 where
  lhsContracting := [1]
  rhsContracting := [0]
  lhsNonContracting := [0]
  rhsNonContracting := [1]
  lhsBatch := []
  rhsBatch := []
  wf := dot_S512x160_S160x160_S512x160_1_0_0_1_n_n_wf
def dot_S1024x160_S160x160_S1024x160_1_0_0_1_n_n : DotDims S1024x160 S160x160 S1024x160 where
  lhsContracting := [1]
  rhsContracting := [0]
  lhsNonContracting := [0]
  rhsNonContracting := [1]
  lhsBatch := []
  rhsBatch := []
  wf := dot_S1024x160_S160x160_S1024x160_1_0_0_1_n_n_wf
def dot_S1024x160_S2048x160_S1024x2048_1_1_0_0_n_n : DotDims S1024x160 S2048x160 S1024x2048 where
  lhsContracting := [1]
  rhsContracting := [1]
  lhsNonContracting := [0]
  rhsNonContracting := [0]
  lhsBatch := []
  rhsBatch := []
  wf := dot_S1024x160_S2048x160_S1024x2048_1_1_0_0_n_n_wf
def dot_S1024x2048_S2048x160_S1024x160_1_0_0_1_n_n : DotDims S1024x2048 S2048x160 S1024x160 where
  lhsContracting := [1]
  rhsContracting := [0]
  lhsNonContracting := [0]
  rhsNonContracting := [1]
  lhsBatch := []
  rhsBatch := []
  wf := dot_S1024x2048_S2048x160_S1024x160_1_0_0_1_n_n_wf

abbrev win0_0 : Pipeline.Window sig grid0 :=
  Pipeline.Window.ofSpec (Memref.whole main_arg1) S1x512x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S160x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S160x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x512x160.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x512x160.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x1024x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S160x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x2048x160.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x2048x160.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x1024x160.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x2048x160 : Shape := ⟨3, ![16, 2048, 160]⟩
abbrev S160x160 : Shape := ⟨2, ![160, 160]⟩
abbrev S160 : Shape := ⟨1, ![160]⟩
abbrev S1x1x160 : Shape := ⟨3, ![1, 1, 160]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S16x2048x160, .f32⟩
  | .hbm, ⟨9, _⟩ => ⟨S1x1x160, .f32⟩
  | .hbm, ⟨10, _⟩ => ⟨S16x2048x160, .f32⟩
  | .hbm, ⟨11, _⟩ => ⟨S16x2048x160, .f32⟩
  | .hbm, ⟨12, _⟩ => ⟨S16x2048x160, .f32⟩
  | .hbm, ⟨13, _⟩ => ⟨S1x1x160, .f32⟩
  | .hbm, ⟨14, _⟩ => ⟨S16x2048x160, .f32⟩
  | .hbm, ⟨15, _⟩ => ⟨S16x2048x160, .f32⟩
  | .hbm, ⟨16, _⟩ => ⟨S16x2048x160, .f32⟩
  | .hbm, ⟨17, _⟩ => ⟨S1x1x160, .f32⟩
  | .hbm, ⟨18, _⟩ => ⟨S16x2048x160, .f32⟩
  | .hbm, ⟨19, _⟩ => ⟨S16x2048x160, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x160, .f32⟩
  | .hbm, ⟨36, _⟩ => ⟨S16x2048x160, .f32⟩
  | _, _ => ⟨S16x2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S160_S1x1x160_2 : S160.BroadcastsInDim S1x1x160 (![2] : Fin 1 → Fin S1x1x160.rank)
  bcast_S1x1x160_S16x2048x160_0_1_2 : S1x1x160.BroadcastsInDim S16x2048x160 (![0, 1, 2] : Fin 3 → Fin S16x2048x160.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x160_S160x160_S16x2048x160_2_0_01_1_n_n_wf : DotDims.WF S16x2048x160 S160x160 S16x2048x160 [2] [0] [0, 1] [1] [] []
  dot_S16x2048x160_S16x2048x160_S16x2048x2048_2_2_1_1_0_0_wf : DotDims.WF S16x2048x160 S16x2048x160 S16x2048x2048 [2] [2] [1] [1] [0] [0]
  dot_S16x2048x2048_S16x2048x160_S16x2048x160_2_1_1_2_0_0_wf : DotDims.WF S16x2048x2048 S16x2048x160 S16x2048x160 [2] [1] [1] [2] [0] [0]

variable [Facts₀]

def dot_S16x2048x160_S160x160_S16x2048x160_2_0_01_1_n_n : DotDims S16x2048x160 S160x160 S16x2048x160 where
  lhsContracting := [2]
  rhsContracting := [0]
  lhsNonContracting := [0, 1]
  rhsNonContracting := [1]
  lhsBatch := []
  rhsBatch := []
  wf := dot_S16x2048x160_S160x160_S16x2048x160_2_0_01_1_n_n_wf
def dot_S16x2048x160_S16x2048x160_S16x2048x2048_2_2_1_1_0_0 : DotDims S16x2048x160 S16x2048x160 S16x2048x2048 where
  lhsContracting := [2]
  rhsContracting := [2]
  lhsNonContracting := [1]
  rhsNonContracting := [1]
  lhsBatch := [0]
  rhsBatch := [0]
  wf := dot_S16x2048x160_S16x2048x160_S16x2048x2048_2_2_1_1_0_0_wf
def dot_S16x2048x2048_S16x2048x160_S16x2048x160_2_1_1_2_0_0 : DotDims S16x2048x2048 S16x2048x160 S16x2048x160 where
  lhsContracting := [2]
  rhsContracting := [1]
  lhsNonContracting := [1]
  rhsNonContracting := [2]
  lhsBatch := [0]
  rhsBatch := [0]
  wf := dot_S16x2048x2048_S16x2048x160_S16x2048x160_2_1_1_2_0_0_wf

class Facts : Prop extends Facts₀ where

variable [Facts]
-- ==== Proof.Spec.lean ====
/-
  Single-head cross-attention with a residual, as ONE function of the eight argument arrays, index by index, on
  the extended reals.  For a batch b, a query row i and a feature e:
    q(b,i,e) = Σ_d x(b,i,d)·Wq(d,e) + bq(e),   k, v likewise from y,
    s(b,i,j) = Σ_e q(b,i,e)·k(b,j,e),   m(b,i) = max_j s(b,i,j) (from −∞),
    w(b,i,j) = exp(s(b,i,j) − m(b,i)),   l(b,i) = Σ_j w(b,i,j),
  and the result in two arrangements: the weighted sum normalised AFTER the contraction with v,
    (Σ_j w(b,i,j)·v(b,j,e)) · (1 / l(b,i)) + x(b,i,e),
  and normalised BEFORE it,
    Σ_j (w(b,i,j) / l(b,i))·v(b,j,e) + x(b,i,e).
  Everything about one query row depends only on that row q(b,i,·) and on the key and value rows of its batch, so the
  row-level functions come first and the arrays are read through them.
  The two arrangements agree wherever every entry involved is a real number (SoftmaxLaw.lean); on the extended reals
  in general they need not, since a product does not distribute over a sum at the infinities.
-/
import Idealize.ShloMosaic.PureOps.Ideal
import Idealize.ShloMosaic.Lib.ValueIdx

noncomputable section

open scoped BigOperators

namespace Cert.CrossAttn

open Idealize.ShloMosaic Idealize.ShloMosaic.ValueIdx

/-- [batch, sequence, feature]: the shape of x, y, k, v and the result. -/
abbrev Seq : Shape := ⟨3, ![16, 2048, 160]⟩
/-- [feature in, feature out]: a projection's weights. -/
abbrev Mat : Shape := ⟨2, ![160, 160]⟩
/-- [feature]: a projection's bias. -/
abbrev Row : Shape := ⟨1, ![160]⟩

/-- An extended real that is a real number: neither infinity. -/
def IsReal (a : EReal) : Prop := ∃ r : ℝ, a = (r : EReal)

/-- −∞ as both programs write it: the value a row's maximum is folded from. -/
abbrev negInf : EReal := Ideal.ofBits .f32 0xFF800000#32
/-- The literal 1.0 the kernel divides by the row's sum. -/
abbrev one : EReal := Ideal.ofBits .f32 0x3F800000#32

/-! ## One row -/

/-- A linear projection of one row a ∈ ℝ¹⁶⁰: (a · W + β) at output feature e. -/
def projRow (a : Fin 160 → EReal) (W : Mat.Idx → EReal) (β : Fin 160 → EReal) (e : Fin 160) : EReal :=
  (∑ d : Fin 160, a d * W (ix2 d e)) + β e

section OneRow
/- a query row q, and the 2048 key rows and value rows of its batch -/
variable (q : Fin 160 → EReal) (k v : Fin 2048 → Fin 160 → EReal)

/-- The score of the query row against key row j: q · k(j,·). -/
def scoreRow (j : Fin 2048) : EReal := ∑ e : Fin 160, q e * k j e

/-- The row's largest score, folded from −∞. -/
def maxRow : EReal := (Finset.univ : Finset (Fin 2048)).fold max negInf (fun j => scoreRow q k j)

/-- The unnormalised softmax weight exp(s_j − m). -/
def weightRow (j : Fin 2048) : EReal := Ideal.exp (scoreRow q k j - maxRow q k)

/-- The row's normaliser Σ_j w_j. -/
def denomRow : EReal := ∑ j : Fin 2048, weightRow q k j

/-- The weighted sum of the value rows, normalised after the contraction (the kernel's arrangement). -/
def mixRow (e : Fin 160) : EReal := (∑ j : Fin 2048, weightRow q k j * v j e) * Ideal.div one (denomRow q k)

/-- The same with each weight normalised first (the reference's arrangement). -/
def mixRowRef (e : Fin 160) : EReal := ∑ j : Fin 2048, Ideal.div (weightRow q k j) (denomRow q k) * v j e

end OneRow

/-! ## The arrays -/

/-- A projection at batch b, row i, output feature e. -/
def proj (a : Seq.Idx → EReal) (W : Mat.Idx → EReal) (β : Row.Idx → EReal) (b : Fin 16) (i : Fin 2048) (e : Fin 160) : EReal :=
  projRow (fun d => a (ix3 b i d)) W (fun e' => β (ix1 e')) e

/-- The projection as a whole array. -/
def projArr (a : Seq.Idx → EReal) (W : Mat.Idx → EReal) (β : Row.Idx → EReal) : Seq.Idx → EReal :=
  fun j => proj a W β (j 0) (j 1) (j 2)

section Attention
/- x with its query projection (Wq, bq), and the key and value arrays kk, vv as the attention step finds them. -/
variable (x : Seq.Idx → EReal) (Wq : Mat.Idx → EReal) (bq : Row.Idx → EReal) (kk vv : Seq.Idx → EReal)

/-- Normalised after the contraction with v, plus the residual (the kernel's arrangement). -/
def attnOut (b : Fin 16) (i : Fin 2048) (e : Fin 160) : EReal :=
  mixRow (fun e' => proj x Wq bq b i e') (fun j e' => kk (ix3 b j e')) (fun j e' => vv (ix3 b j e')) e + x (ix3 b i e)

/-- Normalised before it, plus the residual (the reference's arrangement). -/
def attnOutRef (b : Fin 16) (i : Fin 2048) (e : Fin 160) : EReal :=
  mixRowRef (fun e' => proj x Wq bq b i e') (fun j e' => kk (ix3 b j e')) (fun j e' => vv (ix3 b j e')) e + x (ix3 b i e)

/-- The attention step's whole output array, kernel arrangement. -/
def attnArr : Seq.Idx → EReal := fun j => attnOut x Wq bq kk vv (j 0) (j 1) (j 2)
/-- The same, reference arrangement. -/
def attnArrRef : Seq.Idx → EReal := fun j => attnOutRef x Wq bq kk vv (j 0) (j 1) (j 2)

end Attention

/-- The whole computation from the eight arguments, kernel arrangement. -/
def G (x y : Seq.Idx → EReal) (Wq : Mat.Idx → EReal) (bq : Row.Idx → EReal) (Wk : Mat.Idx → EReal) (bk : Row.Idx → EReal)
    (Wv : Mat.Idx → EReal) (bv : Row.Idx → EReal) : Seq.Idx → EReal :=
  attnArr x Wq bq (projArr y Wk bk) (projArr y Wv bv)

/-- The whole computation, reference arrangement. -/
def Gref (x y : Seq.Idx → EReal) (Wq : Mat.Idx → EReal) (bq : Row.Idx → EReal) (Wk : Mat.Idx → EReal) (bk : Row.Idx → EReal)
    (Wv : Mat.Idx → EReal) (bv : Row.Idx → EReal) : Seq.Idx → EReal :=
  attnArrRef x Wq bq (projArr y Wk bk) (projArr y Wv bv)

theorem projArr_ix3 (a : Seq.Idx → EReal) (W : Mat.Idx → EReal) (β : Row.Idx → EReal) (b : Fin 16) (i : Fin 2048) (e : Fin 160) :
    projArr a W β (ix3 b i e) = proj a W β b i e := rfl

theorem attnArr_ix3 (x : Seq.Idx → EReal) (Wq : Mat.Idx → EReal) (bq : Row.Idx → EReal) (kk vv : Seq.Idx → EReal)
    (b : Fin 16) (i : Fin 2048) (e : Fin 160) : attnArr x Wq bq kk vv (ix3 b i e) = attnOut x Wq bq kk vv b i e := rfl

theorem attnArrRef_ix3 (x : Seq.Idx → EReal) (Wq : Mat.Idx → EReal) (bq : Row.Idx → EReal) (kk vv : Seq.Idx → EReal)
    (b : Fin 16) (i : Fin 2048) (e : Fin 160) : attnArrRef x Wq bq kk vv (ix3 b i e) = attnOutRef x Wq bq kk vv b i e := rfl

end Cert.CrossAttn

end
-- ==== Proof.SoftmaxLaw.lean ====
/-
  Where every entry is a real number, normalising the softmax weights before or after the contraction with v gives the
  same extended real: every score, every weight exp(s − m) and the row's sum l are then real and l > 0 (each weight is
  an exponential, hence positive), so both arrangements are the real number (Σ_j w_j·v_j) / l.
-/
import proofs.«156524_g83305185673742_cont_9to1c4b_147_8_alg».proof.Proof.Spec
import Idealize.ShloMosaic.Lib.IdealHost
import Mathlib.Data.Finset.Fold
import Mathlib.Data.EReal.Operations
import Mathlib.Algebra.Order.BigOperators.Group.Finset
import Mathlib.Analysis.Complex.Exponential

noncomputable section

open scoped BigOperators

namespace Cert.CrossAttn

open Idealize.ShloMosaic Idealize.ShloMosaic.ValueIdx

/-! ## Real entries are closed under the field operations and finite sums -/

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The inclusion of the reals commutes with a finite sum. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of real entries is real. -/
theorem isReal_sum {ι : Type} (s : Finset ι) (f : ι → EReal) (h : ∀ i ∈ s, IsReal (f i)) :
    IsReal (∑ i ∈ s, f i) := by
  classical
  revert h
  refine Finset.induction_on s ?_ ?_
  · intro _
    exact ⟨0, by simp⟩
  · intro a s ha ih h
    rw [Finset.sum_insert ha]
    exact (h a (Finset.mem_insert_self a s)).add (ih fun i hi => h i (Finset.mem_insert_of_mem hi))

/-! ## The two constants -/

/-- The value a row's maximum is folded from is the bottom of the extended reals. -/
theorem negInf_eq_bot : negInf = ⊥ := by
  show Ideal.ofBits .f32 0xFF800000#32 = ⊥
  simp [Ideal.ofBits, Ideal.ieee]

/-- The literal the kernel divides is the number one. -/
theorem one_eq_one : one = 1 := Ideal.ofBits_one_f32

/-! ## A maximum of reals over a nonempty index set, folded from −∞, is real -/

theorem fold_max_coe {ι : Type} (s : Finset ι) (hs : s.Nonempty) (f : ι → ℝ) :
    ∃ M : ℝ, s.fold max (⊥ : EReal) (fun j => (f j : EReal)) = (M : EReal) := by
  have htop : s.fold max (⊥ : EReal) (fun j => (f j : EReal)) ≠ ⊤ := by
    apply ne_of_lt
    rw [Finset.fold_max_lt]
    exact ⟨bot_lt_top, fun x _ => EReal.coe_lt_top _⟩
  have hbot : s.fold max (⊥ : EReal) (fun j => (f j : EReal)) ≠ ⊥ := by
    obtain ⟨i, hi⟩ := hs
    have hle : (f i : EReal) ≤ s.fold max (⊥ : EReal) (fun j => (f j : EReal)) := by
      rw [Finset.le_fold_max]
      exact Or.inr ⟨i, hi, le_rfl⟩
    exact ne_of_gt (lt_of_lt_of_le (EReal.bot_lt_coe _) hle)
  exact ⟨_, (EReal.coe_toReal htop hbot).symm⟩

/-! ## One row over real witnesses -/

/-- A score of real rows is the real inner product. -/
theorem scoreRow_coe (Q : Fin 160 → ℝ) (K : Fin 2048 → Fin 160 → ℝ) (j : Fin 2048) :
    scoreRow (fun e => (Q e : EReal)) (fun j e => (K j e : EReal)) j = ((∑ e, Q e * K j e : ℝ) : EReal) := by
  unfold scoreRow
  rw [coe_sum]
  exact Finset.sum_congr rfl fun e _ => (EReal.coe_mul _ _).symm

/-- The row's maximum of real scores is real. -/
theorem maxRow_coe (Q : Fin 160 → ℝ) (K : Fin 2048 → Fin 160 → ℝ) :
    ∃ M : ℝ, maxRow (fun e => (Q e : EReal)) (fun j e => (K j e : EReal)) = (M : EReal) := by
  unfold maxRow
  rw [negInf_eq_bot]
  simp only [scoreRow_coe]
  exact fold_max_coe _ Finset.univ_nonempty _

/-- One row: with a real query row and real key and value rows the two arrangements agree. -/
theorem mixRowRef_eq_mixRow (q : Fin 160 → EReal) (k v : Fin 2048 → Fin 160 → EReal)
    (hq : ∀ e, IsReal (q e)) (hk : ∀ j e, IsReal (k j e)) (hv : ∀ j e, IsReal (v j e)) (e : Fin 160) :
    mixRowRef q k v e = mixRow q k v e := by
  choose Q hQ using hq
  choose K hK using hk
  choose V hV using hv
  obtain rfl : q = fun e => (Q e : EReal) := funext hQ
  obtain rfl : k = fun j e => (K j e : EReal) := funext fun j => funext (hK j)
  obtain rfl : v = fun j e => (V j e : EReal) := funext fun j => funext (hV j)
  obtain ⟨M, hM⟩ := maxRow_coe Q K
  -- each weight is the exponential of a real number
  have hW : ∀ j, weightRow (fun e => (Q e : EReal)) (fun j e => (K j e : EReal)) j
      = ((Real.exp ((∑ e, Q e * K j e) - M) : ℝ) : EReal) := by
    intro j
    unfold weightRow
    rw [scoreRow_coe, hM, ← EReal.coe_sub, Ideal.exp_coe]
  -- so the row's sum is a positive real number
  have hL : denomRow (fun e => (Q e : EReal)) (fun j e => (K j e : EReal))
      = ((∑ j, Real.exp ((∑ e, Q e * K j e) - M) : ℝ) : EReal) := by
    unfold denomRow
    rw [coe_sum]
    exact Finset.sum_congr rfl fun j _ => hW j
  have hLpos : 0 < ∑ j : Fin 2048, Real.exp ((∑ e, Q e * K j e) - M) :=
    Finset.sum_pos (fun j _ => Real.exp_pos _) Finset.univ_nonempty
  unfold mixRowRef mixRow
  rw [hL, one_eq_one, Ideal.div_coe hLpos.ne', one_mul]
  simp only [hW, Ideal.div_coe hLpos.ne']
  -- both sides are now built from real numbers only: push the inclusion outwards and finish in ℝ
  simp only [← EReal.coe_mul]
  rw [← coe_sum, ← coe_sum, ← EReal.coe_mul]
  refine congrArg Real.toEReal ?_
  rw [Finset.sum_mul]
  exact Finset.sum_congr rfl fun j _ => by ring

/-- A projection of a real row by real weights and a real bias is real. -/
theorem isReal_projRow (a : Fin 160 → EReal) (W : Mat.Idx → EReal) (β : Fin 160 → EReal)
    (ha : ∀ d, IsReal (a d)) (hW : ∀ i, IsReal (W i)) (hβ : ∀ e, IsReal (β e)) (e : Fin 160) : IsReal (projRow a W β e) := by
  unfold projRow
  exact (isReal_sum _ _ fun d _ => (ha d).mul (hW _)).add (hβ e)

/-- With real arguments the two arrangements of the attention function are one array. -/
theorem Gref_eq_G (x y : Seq.Idx → EReal) (Wq : Mat.Idx → EReal) (bq : Row.Idx → EReal) (Wk : Mat.Idx → EReal) (bk : Row.Idx → EReal)
    (Wv : Mat.Idx → EReal) (bv : Row.Idx → EReal)
    (hx : ∀ i, IsReal (x i)) (hy : ∀ i, IsReal (y i)) (hWq : ∀ i, IsReal (Wq i)) (hbq : ∀ i, IsReal (bq i))
    (hWk : ∀ i, IsReal (Wk i)) (hbk : ∀ i, IsReal (bk i)) (hWv : ∀ i, IsReal (Wv i)) (hbv : ∀ i, IsReal (bv i)) :
    Gref x y Wq bq Wk bk Wv bv = G x y Wq bq Wk bk Wv bv := by
  funext j
  obtain ⟨b, i, e, rfl⟩ : ∃ (b : Fin 16) (i : Fin 2048) (e : Fin 160), j = ix3 b i e := ⟨j 0, j 1, j 2, eq_ix3 j⟩
  unfold Gref G
  rw [attnArrRef_ix3, attnArr_ix3]
  unfold attnOutRef attnOut
  rw [mixRowRef_eq_mixRow]
  · intro e'
    exact isReal_projRow _ _ _ (fun d => hx _) hWq (fun e'' => hbq _) e'
  · intro j' e'
    rw [projArr_ix3]
    exact isReal_projRow _ _ _ (fun d => hy _) hWk (fun e'' => hbk _) e'
  · intro j' e'
    rw [projArr_ix3]
    exact isReal_projRow _ _ _ (fun d => hy _) hWv (fun e'' => hbv _) e'

end Cert.CrossAttn

end
-- ==== Proof.FiniteInputs.lean ====
/-
  The precondition "every float input is finite" gives that every entry of each of the eight argument arrays is a real
  number: the printed predicate is the conjunction, array by array, of "every |entry| < +∞".
-/
import proofs.«156524_g83305185673742_cont_9to1c4b_147_8_alg».proof.Pre_finite_inputs
import proofs.«156524_g83305185673742_cont_9to1c4b_147_8_alg».proof.Proof.Spec
import Idealize.ShloMosaic.Lib.ReduceAll

noncomputable section

open scoped BigOperators

namespace Cert.CrossAttn

open Idealize.ShloMosaic Idealize.ShloMosaic.ValueIdx

/-- The bit pattern 0x7F800000 (sign 0, exponent all ones, significand 0) denotes +∞. -/
theorem FiniteInputs.posInf_eq_top : Ideal.ofBits .f32 0x7F800000#32 = (⊤ : EReal) := by
  simp [Ideal.ofBits, Ideal.ieee]

/-- An extended real whose absolute value max(x, −x) lies below +∞ is neither infinity. -/
theorem FiniteInputs.isReal_of_abs_lt_top (x : EReal) (h : max x (-x) < (⊤ : EReal)) : IsReal x := by
  induction x using EReal.rec with
  | bot => simp at h
  | coe r => exact ⟨r, rfl⟩
  | top => simp at h

/-- The rank-0 shape has exactly one index. -/
instance FiniteInputs.subsingleton_scalarIdx : Subsingleton Cert.Pre_finite_inputs.S_.Idx :=
  ⟨fun a b => funext fun d => d.elim0⟩

/-- One array, of any shape s: if the conjunction over all of s of "|a i| < +∞" (folded into a single word, from
    any initial word) is 1, then every entry a i is a real number. -/
theorem FiniteInputs.all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
          (cmpf .olt (Host.absf a) (broadcastInDim s ![] hb (constant Cert.Pre_finite_inputs.S_ .f32 0x7F800000#32)))
          init hr hu ix0 = 1#1) : ∀ i, IsReal (a i) := by
  intro i
  -- the word at i is 1: it is one of the words the conjunction ran over
  have e := Host.reduce_andi_all _ init hr hu ix0 h i
  dsimp only [cmpf, Host.absf, broadcastInDim, constant] at e
  -- that word is the comparison max (a i) (−a i) < +∞ on the extended reals
  change Ideal.cmp .olt (max (a i) (-(a i))) (Ideal.ofBits .f32 0x7F800000#32) = 1#1 at e
  rw [FiniteInputs.posInf_eq_top] at e
  refine FiniteInputs.isReal_of_abs_lt_top _ ?_
  by_contra hn
  simp [Ideal.cmp, hn] at e

/-- If the printed finiteness predicate is all ones on the eight arrays, every entry of each is real. -/
theorem real_of_finite_inputs [Cert.Pre_finite_inputs.Facts]
    (a0 a1 : FVec Ideal Cert.Pre_finite_inputs.S16x2048x160 .f32) (a2 : FVec Ideal Cert.Pre_finite_inputs.S160x160 .f32)
    (a3 : FVec Ideal Cert.Pre_finite_inputs.S160 .f32) (a4 : FVec Ideal Cert.Pre_finite_inputs.S160x160 .f32)
    (a5 : FVec Ideal Cert.Pre_finite_inputs.S160 .f32) (a6 : FVec Ideal Cert.Pre_finite_inputs.S160x160 .f32)
    (a7 : FVec Ideal Cert.Pre_finite_inputs.S160 .f32)
    (h : Cert.Pre_finite_inputs.fn (F := Ideal) a0 a1 a2 a3 a4 a5 a6 a7 = (fun _ => 1#1)) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i)) := by
  -- the predicate's single word, as the eightfold conjunction of the per-array conjunctions
  have h0 := congrFun h ix0
  dsimp only [Cert.Pre_finite_inputs.fn, Cert.Pre_finite_inputs.fn_part1, Cert.Pre_finite_inputs.fn_part2, andi] at h0
  -- a conjunction of two words is 1 only if both are
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨FiniteInputs.all_real a0 _ _ _ _ e0, FiniteInputs.all_real a1 _ _ _ _ e1, FiniteInputs.all_real a2 _ _ _ _ e2, FiniteInputs.all_real a3 _ _ _ _ e3,
    FiniteInputs.all_real a4 _ _ _ _ e4, FiniteInputs.all_real a5 _ _ _ _ e5, FiniteInputs.all_real a6 _ _ _ _ e6, FiniteInputs.all_real a7 _ _ _ _ e7⟩

end Cert.CrossAttn

end
-- ==== Proof.RefValue.lean ====
/-
  The reference's result array, read index by index through its operations, is the attention function in the
  reference's arrangement: its row maximum max(−∞, fold) is the fold, its row sum 0 + Σ is the Σ.
  Each stage is read at explicit coordinates (batch b, query row r, key row j, feature e): the three projections,
  the scores, the row maximum, the weights, the row sum, the normalised weights, their contraction with the value
  rows; the last stage adds the residual.
-/
import proofs.«156524_g83305185673742_cont_9to1c4b_147_8_alg».proof.Proof.Gen.ReferenceIdeal.Run
import proofs.«156524_g83305185673742_cont_9to1c4b_147_8_alg».proof.Proof.Gen.ReferenceIdeal.Read
import proofs.«156524_g83305185673742_cont_9to1c4b_147_8_alg».proof.Proof.Spec
import Idealize.ShloMosaic.Lib.ValueIdx
import Idealize.ShloMosaic.PureOps.Ideal.Laws
import Idealize.ShloMosaic.PureOps.Reduce

noncomputable section

open scoped BigOperators

namespace Cert.CrossAttn.Ref

open Cert.ReferenceIdeal Cert.ReferenceIdeal.Gen Idealize.ShloMosaic Idealize.ShloMosaic.ValueIdx

/-! ## The composed index functions at coordinates -/

section Indices
variable (b : Fin 16) (r j : Fin 2048) (e k : Fin 160)

theorem lidx0 : Read.lidx_main_v0 (ix3 b r e) k = ix3 b r k :=
  funext fun a => Fin.ext (by match a with | ⟨0, _⟩ => rfl | ⟨1, _⟩ => rfl | ⟨2, _⟩ => rfl)
theorem ridx0 : Read.ridx_main_v0 (ix3 b r e) k = ix2 k e :=
  funext fun a => Fin.ext (by match a with | ⟨0, _⟩ => rfl | ⟨1, _⟩ => rfl)
theorem idx12 : Read.idx_main_v1 (Read.idx_main_v2 (ix3 b r e)) = ix1 e :=
  funext fun a => Fin.ext (by match a with | ⟨0, _⟩ => rfl)
theorem lidx4 : Read.lidx_main_v4 (ix3 b r e) k = ix3 b r k :=
  funext fun a => Fin.ext (by match a with | ⟨0, _⟩ => rfl | ⟨1, _⟩ => rfl | ⟨2, _⟩ => rfl)
theorem ridx4 : Read.ridx_main_v4 (ix3 b r e) k = ix2 k e :=
  funext fun a => Fin.ext (by match a with | ⟨0, _⟩ => rfl | ⟨1, _⟩ => rfl)
theorem idx56 : Read.idx_main_v5 (Read.idx_main_v6 (ix3 b r e)) = ix1 e :=
  funext fun a => Fin.ext (by match a with | ⟨0, _⟩ => rfl)
theorem lidx8 : Read.lidx_main_v8 (ix3 b r e) k = ix3 b r k :=
  funext fun a => Fin.ext (by match a with | ⟨0, _⟩ => rfl | ⟨1, _⟩ => rfl | ⟨2, _⟩ => rfl)
theorem ridx8 : Read.ridx_main_v8 (ix3 b r e) k = ix2 k e :=
  funext fun a => Fin.ext (by match a with | ⟨0, _⟩ => rfl | ⟨1, _⟩ => rfl)
theorem idx910 : Read.idx_main_v9 (Read.idx_main_v10 (ix3 b r e)) = ix1 e :=
  funext fun a => Fin.ext (by match a with | ⟨0, _⟩ => rfl)
theorem lidx12 : Read.lidx_main_v12 (ix3 b r j) k = ix3 b r k :=
  funext fun a => Fin.ext (by match a with | ⟨0, _⟩ => rfl | ⟨1, _⟩ => rfl | ⟨2, _⟩ => rfl)
theorem ridx12 : Read.ridx_main_v12 (ix3 b r j) k = ix3 b j k :=
  funext fun a => Fin.ext (by match a with | ⟨0, _⟩ => rfl | ⟨1, _⟩ => rfl | ⟨2, _⟩ => rfl)
theorem idx1617 : Read.idx_main_v16 (Read.idx_main_v17 (ix3 b r j)) = ix2 b r :=
  funext fun a => Fin.ext (by match a with | ⟨0, _⟩ => rfl | ⟨1, _⟩ => rfl)
theorem idx2122 : Read.idx_main_v21 (Read.idx_main_v22 (ix3 b r j)) = ix2 b r :=
  funext fun a => Fin.ext (by match a with | ⟨0, _⟩ => rfl | ⟨1, _⟩ => rfl)
theorem idx20 : Read.idx_main_v20 (ix2 b r) j = ix3 b r j :=
  funext fun a => Fin.ext (by match a with | ⟨0, _⟩ => rfl | ⟨1, _⟩ => rfl | ⟨2, _⟩ => rfl)
theorem lidx24 : Read.lidx_main_v24 (ix3 b r e) j = ix3 b r j :=
  funext fun a => Fin.ext (by match a with | ⟨0, _⟩ => rfl | ⟨1, _⟩ => rfl | ⟨2, _⟩ => rfl)
theorem ridx24 : Read.ridx_main_v24 (ix3 b r e) j = ix3 b j e :=
  funext fun a => Fin.ext (by match a with | ⟨0, _⟩ => rfl | ⟨1, _⟩ => rfl | ⟨2, _⟩ => rfl)

end Indices

/-! ## The stages at coordinates -/

section Stages
variable (x0 x1 : (⟨S16x2048x160, .f32⟩ : BufTy).Contents (Elt Ideal)) (x2 x4 x6 : (⟨S160x160, .f32⟩ : BufTy).Contents (Elt Ideal))
  (x3 x5 x7 : (⟨S160, .f32⟩ : BufTy).Contents (Elt Ideal))

theorem q_at (b : Fin 16) (r : Fin 2048) (e : Fin 160) :
    Read.val_main_v3 (F := Ideal) x0 x2 x3 (ix3 b r e) = proj x0 x2 x3 b r e := by
  rw [Read.val_main_v3_apply, Read.val_main_v0_apply, Read.val_main_v2_apply, Read.val_main_v1_apply]
  simp only [Ideal.addf_def, lidx0, ridx0, idx12]
  rfl

theorem k_at (b : Fin 16) (r : Fin 2048) (e : Fin 160) :
    Read.val_main_v7 (F := Ideal) x1 x4 x5 (ix3 b r e) = proj x1 x4 x5 b r e := by
  rw [Read.val_main_v7_apply, Read.val_main_v4_apply, Read.val_main_v6_apply, Read.val_main_v5_apply]
  simp only [Ideal.addf_def, lidx4, ridx4, idx56]
  rfl

theorem v_at (b : Fin 16) (r : Fin 2048) (e : Fin 160) :
    Read.val_main_v11 (F := Ideal) x1 x6 x7 (ix3 b r e) = proj x1 x6 x7 b r e := by
  rw [Read.val_main_v11_apply, Read.val_main_v8_apply, Read.val_main_v10_apply, Read.val_main_v9_apply]
  simp only [Ideal.addf_def, lidx8, ridx8, idx910]
  rfl

theorem score_at (b : Fin 16) (r j : Fin 2048) :
    Read.val_main_v12 (F := Ideal) x0 x1 x2 x3 x4 x5 (ix3 b r j)
      = scoreRow (fun e => proj x0 x2 x3 b r e) (fun j e => projArr x1 x4 x5 (ix3 b j e)) j := by
  rw [Read.val_main_v12_apply]
  simp only [lidx12, ridx12, q_at, k_at]
  rfl

/-- A maximum over the last axis from the reference's −∞ constant, at a row: the fold of max over that row. -/
theorem rowmax_read (y : (⟨S16x2048x2048, .f32⟩ : BufTy).Contents (Elt Ideal)) (b : Fin 16) (r : Fin 2048) :
    Host.reduce (FloatOps.maximumf (F := Ideal) (φ := .f32)) y (Read.val_main_cst (F := Ideal))
        reducesTo_S16x2048x2048_S16x2048_d2 h_S_ (ix2 b r)
      = (Finset.univ : Finset (Fin 2048)).fold max negInf (fun j => y (ix3 b r j)) := by
  have h : S16x2048x2048.Reduces [2] S16x2048 := by decide
  rw [Host.reduce_eq_fold_single _ _ _ reducesTo_S16x2048x2048_S16x2048_d2 h]
  have hf : (y ∘ h.lift (ix2 b r)) = fun j : Fin 2048 => y (ix3 b r j) :=
    funext fun k => congrArg y (funext fun a => Fin.ext (by
      match a with | ⟨0, _⟩ => rfl | ⟨1, _⟩ => rfl | ⟨2, _⟩ => rfl))
  rw [hf]
  rfl

/-- The reference's row maximum max(−∞, fold) is the fold: a fold of max is at least its start. -/
theorem max_at (b : Fin 16) (r : Fin 2048) :
    Read.val_main_v15 (F := Ideal) x0 x1 x2 x3 x4 x5 (ix2 b r)
      = maxRow (fun e => proj x0 x2 x3 b r e) (fun j e => projArr x1 x4 x5 (ix3 b j e)) := by
  rw [Read.val_main_v15_apply, Read.val_main_v14_apply, Read.val_main_cst_0_apply]
  unfold Read.val_main_v13
  rw [rowmax_read]
  simp only [score_at, Ideal.maximumf_def, Ideal.ofBits_def]
  unfold maxRow
  exact max_eq_right ((Finset.le_fold_max _).2 (Or.inl le_rfl))

theorem weight_at (b : Fin 16) (r j : Fin 2048) :
    Read.val_main_v19 (F := Ideal) x0 x1 x2 x3 x4 x5 (ix3 b r j)
      = weightRow (fun e => proj x0 x2 x3 b r e) (fun j e => projArr x1 x4 x5 (ix3 b j e)) j := by
  rw [Read.val_main_v19_apply, Read.val_main_v18_apply, Read.val_main_v17_apply, Read.val_main_v16_apply, idx1617,
    max_at, score_at]
  simp only [Ideal.hostUnary_exp_def, Ideal.subf_def]
  rfl

/-- The reference's row sum 0 + Σ is the Σ. -/
theorem denom_at (b : Fin 16) (r : Fin 2048) :
    Read.val_main_v20 (F := Ideal) x0 x1 x2 x3 x4 x5 (ix2 b r)
      = denomRow (fun e => proj x0 x2 x3 b r e) (fun j e => projArr x1 x4 x5 (ix3 b j e)) := by
  rw [Read.val_main_v20_apply, Read.val_main_cst_1_apply]
  simp only [idx20, weight_at, Ideal.ofBits_def, Ideal.ofBits_zero_f32, zero_add]
  rfl

theorem norm_at (b : Fin 16) (r j : Fin 2048) :
    Read.val_main_v23 (F := Ideal) x0 x1 x2 x3 x4 x5 (ix3 b r j)
      = Ideal.div (weightRow (fun e => proj x0 x2 x3 b r e) (fun j e => projArr x1 x4 x5 (ix3 b j e)) j)
          (denomRow (fun e => proj x0 x2 x3 b r e) (fun j e => projArr x1 x4 x5 (ix3 b j e))) := by
  rw [Read.val_main_v23_apply, Read.val_main_v22_apply, Read.val_main_v21_apply, idx2122, denom_at, weight_at]
  rfl

theorem mix_at (b : Fin 16) (r : Fin 2048) (e : Fin 160) :
    Read.val_main_v24 (F := Ideal) x0 x1 x2 x3 x4 x5 x6 x7 (ix3 b r e)
      = mixRowRef (fun e => proj x0 x2 x3 b r e) (fun j e => projArr x1 x4 x5 (ix3 b j e))
          (fun j e => projArr x1 x6 x7 (ix3 b j e)) e := by
  rw [Read.val_main_v24_apply]
  simp only [lidx24, ridx24, norm_at, v_at]
  rfl

end Stages

/-- The reference's last stage, as a function of the eight argument arrays, is `Gref` of them. -/
theorem ref_is_Gref (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (x6 : (⟨S160x160, .f32⟩ : BufTy).Contents (Elt Ideal))
    (x7 : (⟨S160, .f32⟩ : BufTy).Contents (Elt Ideal)) :
    Cert.ReferenceIdeal.Read.val_main_v25 (F := Ideal) x0 x1 x2 x3 x4 x5 x6 x7 = Gref x0 x1 x2 x3 x4 x5 x6 x7 := by
  funext i
  obtain ⟨b, r, e, rfl⟩ : ∃ (b : Fin 16) (r : Fin 2048) (e : Fin 160), i = ix3 b r e := ⟨i 0, i 1, i 2, eq_ix3 i⟩
  rw [Read.val_main_v25_apply, mix_at]
  rfl

end Cert.CrossAttn.Ref

end
-- ==== Proof.ProjPayload.lean ====
/-
  What the projection body stores, read at one element: row r of the loaded [1,512,160] block of y times the
  [160,160] weights, plus the bias row (loaded as [1,160]); the narrowing to bf16 is the identity on the extended reals.
-/
import proofs.«156524_g83305185673742_cont_9to1c4b_147_8_alg».proof.Proof.Gen.KernelIdeal.Skeleton
import proofs.«156524_g83305185673742_cont_9to1c4b_147_8_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.CrossAttn.Proj

open Cert.KernelIdeal Cert.KernelIdeal.Gen Idealize.ShloMosaic Idealize.ShloMosaic.ValueIdx

/-! ## The block's product: which elements of the two operands meet

The product contracts the block's feature axis (axis 1 of [512,160]) with the weights' input axis (axis 0 of
[160,160]). At the output element (r, e) and contraction position k the left operand is read at (r, k) and the right
operand at (k, e): one fact per operand axis. -/

/-- The left operand's row is the output's row. -/
theorem lhs_row (i : S512x160.Idx) (q : dot_S512x160_S160x160_S512x160_1_0_0_1_n_n.contr.Idx) :
    (dot_S512x160_S160x160_S512x160_1_0_0_1_n_n.lhsIdx i q 0).val = (i 0).val := by
  unfold DotDims.lhsIdx
  rw [dif_neg (show ¬(0 : Fin S512x160.rank) ∈ dot_S512x160_S160x160_S512x160_1_0_0_1_n_n.lhsBatch by decide), dif_pos (show (0 : Fin S512x160.rank) ∈ dot_S512x160_S160x160_S512x160_1_0_0_1_n_n.lhsNonContracting by decide)]
  rfl

/-- The left operand's feature is the contraction position. -/
theorem lhs_feature (i : S512x160.Idx) (q : dot_S512x160_S160x160_S512x160_1_0_0_1_n_n.contr.Idx) :
    (dot_S512x160_S160x160_S512x160_1_0_0_1_n_n.lhsIdx i q 1).val = (q ⟨0, by decide⟩).val :=
  dot_S512x160_S160x160_S512x160_1_0_0_1_n_n.lhsIdx_val_of_single rfl i q

/-- The weights' input feature is the contraction position. -/
theorem rhs_feature_in (i : S512x160.Idx) (q : dot_S512x160_S160x160_S512x160_1_0_0_1_n_n.contr.Idx) :
    (dot_S512x160_S160x160_S512x160_1_0_0_1_n_n.rhsIdx i q 0).val = (q ⟨0, by decide⟩).val :=
  dot_S512x160_S160x160_S512x160_1_0_0_1_n_n.rhsIdx_val_of_single rfl i q

/-- The weights' output feature is the output's feature. -/
theorem rhs_feature_out (i : S512x160.Idx) (q : dot_S512x160_S160x160_S512x160_1_0_0_1_n_n.contr.Idx) :
    (dot_S512x160_S160x160_S512x160_1_0_0_1_n_n.rhsIdx i q 1).val = (i 1).val := by
  unfold DotDims.rhsIdx
  rw [dif_neg (show ¬(1 : Fin S160x160.rank) ∈ dot_S512x160_S160x160_S512x160_1_0_0_1_n_n.rhsBatch by decide), dif_pos (show (1 : Fin S160x160.rank) ∈ dot_S512x160_S160x160_S512x160_1_0_0_1_n_n.rhsNonContracting by decide)]
  rfl

/-- Row r of the block (viewed [512,160]) times the weights, accumulated into zero: the sum over the 160 input
    features of y(0, r, d) · W(d, e). -/
theorem block_product (y0 : FVec Ideal S1x512x160 .f32) (w : FVec Ideal S160x160 .f32) (r : Fin 512) (e : Fin 160) :
    matmul dot_S512x160_S160x160_S512x160_1_0_0_1_n_n none (k0_pay1 y0) w (constant (F := Ideal) S512x160 .f32 0x00000000#32) (ix2 r e)
      = ∑ d : Fin 160, y0 (ix3 (0 : Fin 1) r d) * w (ix2 d e) := by
  simp only [matmul]
  rw [Ideal.matmul_constant_zero_apply, ← Equiv.sum_comp (contrEquiv1 dot_S512x160_S160x160_S512x160_1_0_0_1_n_n 160 rfl rfl).symm]
  refine Finset.sum_congr rfl fun k _ => ?_
  have hk := contrEquiv1_symm_val dot_S512x160_S160x160_S512x160_1_0_0_1_n_n 160 rfl rfl k
  have el : dot_S512x160_S160x160_S512x160_1_0_0_1_n_n.lhsIdx (ix2 r e) ((contrEquiv1 dot_S512x160_S160x160_S512x160_1_0_0_1_n_n 160 rfl rfl).symm k) = ix2 r k := funext fun a => Fin.ext (by
    match a with
    | ⟨0, _⟩ => exact lhs_row _ _
    | ⟨1, _⟩ => exact (lhs_feature _ _).trans hk)
  have er : dot_S512x160_S160x160_S512x160_1_0_0_1_n_n.rhsIdx (ix2 r e) ((contrEquiv1 dot_S512x160_S160x160_S512x160_1_0_0_1_n_n 160 rfl rfl).symm k) = ix2 k e := funext fun a => Fin.ext (by
    match a with
    | ⟨0, _⟩ => exact (rhs_feature_in _ _).trans hk
    | ⟨1, _⟩ => exact rhs_feature_out _ _)
  rw [el, er]
  unfold k0_pay1
  rw [shapeCast_1ab_ab_apply]

/-- The key store's value at row r, feature e of the block. -/
theorem key_payload (y0 : Vec Ideal S1x512x160 .f32) (w : Vec Ideal S160x160 .f32) (β : Vec Ideal S1x160 .f32) (r : Fin 512) (e : Fin 160) :
    k0_pay2 y0 w β (ix3 (0 : Fin 1) r e) = projRow (fun d => y0 (ix3 (0 : Fin 1) r d)) w (fun e' => β (ix2 (0 : Fin 1) e')) e := by
  unfold k0_pay2
  rw [shapeCast_ab_1ab_apply, truncf_apply, addf_apply, broadcastTo_1b_ab_apply, shapeCast_self, block_product]
  rfl

/-- The two stores hold the same function of their own weights and bias. -/
theorem value_payload_eq_key (y0 : Vec Ideal S1x512x160 .f32) (w : Vec Ideal S160x160 .f32) (β : Vec Ideal S1x160 .f32) :
    k0_pay3 y0 w β = k0_pay2 y0 w β := rfl

/-- The value store's value at row r, feature e of the block: the same function of its own weights and bias. -/
theorem value_payload (y0 : Vec Ideal S1x512x160 .f32) (w : Vec Ideal S160x160 .f32) (β : Vec Ideal S1x160 .f32) (r : Fin 512) (e : Fin 160) :
    k0_pay3 y0 w β (ix3 (0 : Fin 1) r e) = projRow (fun d => y0 (ix3 (0 : Fin 1) r d)) w (fun e' => β (ix2 (0 : Fin 1) e')) e := by
  rw [value_payload_eq_key]
  exact key_payload y0 w β r e

end Cert.CrossAttn.Proj

end
-- ==== Proof.ProjBlocks.lean ====
/-
  The projection region: 64 grid points (batch b, row block t of 512 rows); each point writes rows 512t … 512t+511 of
  batch b of the key array and of the value array, y·Wk + bk and y·Wv + bv there. The blocks tile both arrays, so after
  the region each array is the whole projection of y.
-/
import proofs.«156524_g83305185673742_cont_9to1c4b_147_8_alg».proof.Proof.Gen.KernelIdeal.Frame
import proofs.«156524_g83305185673742_cont_9to1c4b_147_8_alg».proof.Proof.Spec
import proofs.«156524_g83305185673742_cont_9to1c4b_147_8_alg».proof.Proof.ProjPayload
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.CrossAttn.Proj

open Cert.KernelIdeal Cert.KernelIdeal.Gen Idealize.ShloMosaic Idealize.ShloMosaic.TcCoe Idealize.SL.Sem Idealize.ShloMosaic.ValueIdx
open Idealize.ShloMosaic.Pipeline (Dat)

/-! ## One stored element as an element of the projection -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The key store's value at any index of the [1,512,160] block: its row and feature are the index's. -/
theorem key_payload_at (y0 : Vec Ideal S1x512x160 .f32) (w : Vec Ideal S160x160 .f32) (β : Vec Ideal S1x160 .f32) (j : S1x512x160.Idx) :
    k0_pay2 y0 w β j = projRow (fun d => y0 (ix3 (0 : Fin 1) (j 1) d)) w (fun e' => β (ix2 (0 : Fin 1) e')) (j 2) := by
  obtain ⟨u, r, e, rfl⟩ : ∃ (u : Fin 1) (r : Fin 512) (e : Fin 160), j = ix3 u r e := ⟨j 0, j 1, j 2, eq_ix3 j⟩
  obtain rfl : u = 0 := Subsingleton.elim u 0
  exact key_payload y0 w β r e

/-- The value store's likewise. -/
theorem value_payload_at (y0 : Vec Ideal S1x512x160 .f32) (w : Vec Ideal S160x160 .f32) (β : Vec Ideal S1x160 .f32) (j : S1x512x160.Idx) :
    k0_pay3 y0 w β j = projRow (fun d => y0 (ix3 (0 : Fin 1) (j 1) d)) w (fun e' => β (ix2 (0 : Fin 1) e')) (j 2) := by
  obtain ⟨u, r, e, rfl⟩ : ∃ (u : Fin 1) (r : Fin 512) (e : Fin 160), j = ix3 u r e := ⟨j 0, j 1, j 2, eq_ix3 j⟩
  obtain rfl : u = 0 := Subsingleton.elim u 0
  exact value_payload y0 w β r e

/-- A row of a block that is a row of the array a, projected by a block of weights that is the weights W and a bias
    row that is the bias β, is the array's projection at that row: the hypotheses say where the block's entries sit
    in the arrays (row r of the block is row (i 0, i 1) of a; the feature e is the index's). -/
theorem projRow_of_block (a : Seq.Idx → EReal) (W : Mat.Idx → EReal) (β : S1x160.Idx → EReal)
    (y0 : S1x512x160.Idx → EReal) (w0 : S160x160.Idx → EReal) (β0 : S1x160.Idx → EReal) (r : Fin 512) (e : Fin 160) (i : Seq.Idx)
    (hy : ∀ d : Fin 160, y0 (ix3 (0 : Fin 1) r d) = a (ix3 (i 0) (i 1) d))
    (hw : ∀ d : Fin 160, w0 (ix2 d e) = W (ix2 d e))
    (hβ : β0 (ix2 (0 : Fin 1) e) = β (ix2 (0 : Fin 1) e))
    (he : (i 2).val = e.val) :
    projRow (fun d => y0 (ix3 (0 : Fin 1) r d)) w0 (fun e' => β0 (ix2 (0 : Fin 1) e')) e
      = projArr a W (fun q => β (ix2 (0 : Fin 1) (q 0))) i := by
  obtain ⟨b, s, e', rfl⟩ : ∃ (b : Fin 16) (s : Fin 2048) (e' : Fin 160), i = ix3 b s e' := ⟨i 0, i 1, i 2, eq_ix3 i⟩
  obtain rfl : e' = e := Fin.ext he
  rw [projArr_ix3]
  unfold proj projRow
  exact congrArg₂ (· + ·) (Finset.sum_congr rfl fun d _ => congrArg₂ (· * ·) (hy d) (hw d)) hβ

/-! ## Where each window's block sits, decided once over the 64 grid points

At grid point (b, s) the block of y and the two output blocks are block (b, s, 0) of their arrays; the weights and the
bias rows are whole, block (0, 0). -/

/-- y's block moves with the key block, and neither moves along the features. -/
theorem key_block_idx : ∀ t : Fin cfg0.N, win0_0.index t (0 : Fin 3) = win0_5.index t (0 : Fin 3)
    ∧ win0_0.index t (1 : Fin 3) = win0_5.index t (1 : Fin 3)
    ∧ win0_0.index t (2 : Fin 3) = 0 ∧ win0_5.index t (2 : Fin 3) = 0 :=
  (by decide +kernel : ∀ t : Fin grid0.N, _)

/-- y's block moves with the value block, and neither moves along the features. -/
theorem value_block_idx : ∀ t : Fin cfg0.N, win0_0.index t (0 : Fin 3) = win0_6.index t (0 : Fin 3)
    ∧ win0_0.index t (1 : Fin 3) = win0_6.index t (1 : Fin 3)
    ∧ win0_0.index t (2 : Fin 3) = 0 ∧ win0_6.index t (2 : Fin 3) = 0 :=
  (by decide +kernel : ∀ t : Fin grid0.N, _)

/-- The weights and the bias rows are read whole at every point. -/
theorem whole_block_idx : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch, row block) is some point's key block … -/
theorem key_block_onto : ∀ (b : Fin 16) (s : Fin 4), ∃ t : Fin cfg0.N, win0_5.index t = ![b.val, s.val, 0] :=
  (by decide +kernel : ∀ (b : Fin 16) (s : Fin 4), ∃ t : Fin grid0.N, win0_5.index t = ![b.val, s.val, 0])

/-- … and some point's value block. -/
theorem value_block_onto : ∀ (b : Fin 16) (s : Fin 4), ∃ t : Fin cfg0.N, win0_6.index t = ![b.val, s.val, 0] :=
  (by decide +kernel : ∀ (b : Fin 16) (s : Fin 4), ∃ t : Fin grid0.N, win0_6.index t = ![b.val, s.val, 0])

/- the TensorCore's buffer contents when the region is entered -/
variable (V : (c : Dev nD) → (b : Ref sig .tc) → Buf (Elt Ideal) ((c : Thread nD τ).loc b))

/-! ## The input blocks read off their arrays -/

/-- y's block at point t, row r: row 512·(row block) + r of batch (batch) of y, where the output's block index says. -/
theorem y_block_row (c : Dev nD) (t : Fin cfg0.N) (r : Fin 512) (d : Fin 160) (i : S16x2048x160.Idx)
    (h0 : (i 0).val = win0_0.index t (0 : Fin 3)) (h1 : (i 1).val = win0_0.index t (1 : Fin 3) * 512 + r.val) :
    (iblk0 V c 0 t : S1x512x160.Idx → EReal) (ix3 (0 : Fin 1) r d) = (V c main_arg1 : S16x2048x160.Idx → EReal) (ix3 (i 0) (i 1) d) := by
  obtain ⟨-, -, e2, -⟩ := key_block_idx t
  show (V c main_arg1 : S16x2048x160.Idx → EReal) (((cfg0.win 0).blk t).view.emb (ix3 (0 : Fin 1) r d)) = _
  refine congrArg _ (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 160 + 1 * d.val = d.val; omega

/-- A whole [160,160] block at block index (0, 0) is its array. -/
theorem wk_block (c : Dev nD) (t : Fin cfg0.N) (d e : Fin 160) :
    (iblk0 V c 1 t : S160x160.Idx → EReal) (ix2 d e) = (V c main_arg4 : S160x160.Idx → EReal) (ix2 d e) := by
  obtain ⟨e0, e1, -⟩ := whole_block_idx t
  show (V c main_arg4 : S160x160.Idx → EReal) (((cfg0.win 1).blk t).view.emb (ix2 d e)) = _
  refine congrArg _ (funext fun a => Fin.ext ?_)
  match a with
  | ⟨0, _⟩ => show win0_1.index t (0 : Fin 2) * 160 + 1 * d.val = d.val; omega
  | ⟨1, _⟩ => show win0_1.index t (1 : Fin 2) * 160 + 1 * e.val = e.val; omega

theorem wv_block (c : Dev nD) (t : Fin cfg0.N) (d e : Fin 160) :
    (iblk0 V c 3 t : S160x160.Idx → EReal) (ix2 d e) = (V c main_arg6 : S160x160.Idx → EReal) (ix2 d e) := by
  obtain ⟨-, -, -, -, e0, e1, -⟩ := whole_block_idx t
  show (V c main_arg6 : S160x160.Idx → EReal) (((cfg0.win 3).blk t).view.emb (ix2 d e)) = _
  refine congrArg _ (funext fun a => Fin.ext ?_)
  match a with
  | ⟨0, _⟩ => show win0_3.index t (0 : Fin 2) * 160 + 1 * d.val = d.val; omega
  | ⟨1, _⟩ => show win0_3.index t (1 : Fin 2) * 160 + 1 * e.val = e.val; omega

/-- A whole [1,160] block at block index (0, 0) is its array. -/
theorem bk_block (c : Dev nD) (t : Fin cfg0.N) (e : Fin 160) :
    (iblk0 V c 2 t : S1x160.Idx → EReal) (ix2 (0 : Fin 1) e) = (V c main_v1 : S1x160.Idx → EReal) (ix2 (0 : Fin 1) e) := by
  obtain ⟨-, -, e0, e1, -⟩ := whole_block_idx t
  show (V c main_v1 : S1x160.Idx → EReal) (((cfg0.win 2).blk t).view.emb (ix2 (0 : Fin 1) e)) = _
  refine congrArg _ (funext fun a => Fin.ext ?_)
  match a with
  | ⟨0, _⟩ => show win0_2.index t (0 : Fin 2) * 1 + 1 * 0 = 0; omega
  | ⟨1, _⟩ => show win0_2.index t (1 : Fin 2) * 160 + 1 * e.val = e.val; omega

theorem bv_block (c : Dev nD) (t : Fin cfg0.N) (e : Fin 160) :
    (iblk0 V c 4 t : S1x160.Idx → EReal) (ix2 (0 : Fin 1) e) = (V c main_v2 : S1x160.Idx → EReal) (ix2 (0 : Fin 1) e) := by
  obtain ⟨-, -, -, -, -, -, e0, e1⟩ := whole_block_idx t
  show (V c main_v2 : S1x160.Idx → EReal) (((cfg0.win 4).blk t).view.emb (ix2 (0 : Fin 1) e)) = _
  refine congrArg _ (funext fun a => Fin.ext ?_)
  match a with
  | ⟨0, _⟩ => show win0_4.index t (0 : Fin 2) * 1 + 1 * 0 = 0; omega
  | ⟨1, _⟩ => show win0_4.index t (1 : Fin 2) * 160 + 1 * e.val = e.val; omega

/-! ## What each point writes back: its block of the projection -/

/-- Point t writes back block t of the key projection of y as the region finds it. -/
theorem keys_flushed (c : Dev nD) (t : Fin cfg0.N) :
    (dat0 V c).flushed 5 t = ((cfg0.win 5).blk t).view.read (Elt Ideal)
      (projArr (V c main_arg1) (V c main_arg4) (fun j => V c main_v1 (ix2 (0 : Fin 1) (j 0)))) := by
  show (cfg0.win 5).cut (grid0.coords t) ((dat0 V c).after 5 t) = _
  rw [after0_5]
  unfold out0_5
  rw [View.canon_unit_zero zeros3]
  simp only [View.ld_unit_zero (S := S1x512x160) zeros3, View.ld_unit_zero (S := S160x160) zeros2, View.ld_unit_zero (S := S1x160) zeros2]
  obtain ⟨e0, e1, e2, e3⟩ := key_block_idx t
  funext j
  show k0_pay2 (iblk0 V c 0 t) (iblk0 V c 1 t) (iblk0 V c 2 t) j
    = projArr (V c main_arg1) (V c main_arg4) (fun q => V c main_v1 (ix2 (0 : Fin 1) (q 0))) (((cfg0.win 5).blk t).view.emb j)
  have hj0 : (j 0).val < 1 := (j 0).isLt
  refine (key_payload_at _ _ _ j).trans (projRow_of_block _ _ _ _ _ _ (j 1) (j 2) _ (fun d => ?_) (fun d => ?_) ?_ ?_)
  · refine y_block_row V c t (j 1) d _ ?_ ?_
    · show win0_5.index t (0 : Fin 3) * 1 + 1 * (j 0).val = win0_0.index t (0 : Fin 3); omega
    · show win0_5.index t (1 : Fin 3) * 512 + 1 * (j 1).val = win0_0.index t (1 : Fin 3) * 512 + (j 1).val; omega
  · exact wk_block V c t d (j 2)
  · exact bk_block V c t (j 2)
  · show win0_5.index t (2 : Fin 3) * 160 + 1 * (j 2).val = (j 2).val; omega

/-- Point t writes back block t of the value projection of y as the region finds it. -/
theorem values_flushed (c : Dev nD) (t : Fin cfg0.N) :
    (dat0 V c).flushed 6 t = ((cfg0.win 6).blk t).view.read (Elt Ideal)
      (projArr (V c main_arg1) (V c main_arg6) (fun j => V c main_v2 (ix2 (0 : Fin 1) (j 0)))) := by
  show (cfg0.win 6).cut (grid0.coords t) ((dat0 V c).after 6 t) = _
  rw [after0_6]
  unfold out0_6
  rw [View.canon_unit_zero zeros3]
  simp only [View.ld_unit_zero (S := S1x512x160) zeros3, View.ld_unit_zero (S := S160x160) zeros2, View.ld_unit_zero (S := S1x160) zeros2]
  obtain ⟨e0, e1, e2, e3⟩ := value_block_idx t
  funext j
  show k0_pay3 (iblk0 V c 0 t) (iblk0 V c 3 t) (iblk0 V c 4 t) j
    = projArr (V c main_arg1) (V c main_arg6) (fun q => V c main_v2 (ix2 (0 : Fin 1) (q 0))) (((cfg0.win 6).blk t).view.emb j)
  have hj0 : (j 0).val < 1 := (j 0).isLt
  refine (value_payload_at _ _ _ j).trans (projRow_of_block _ _ _ _ _ _ (j 1) (j 2) _ (fun d => ?_) (fun d => ?_) ?_ ?_)
  · refine y_block_row V c t (j 1) d _ ?_ ?_
    · show win0_6.index t (0 : Fin 3) * 1 + 1 * (j 0).val = win0_0.index t (0 : Fin 3); omega
    · show win0_6.index t (1 : Fin 3) * 512 + 1 * (j 1).val = win0_0.index t (1 : Fin 3) * 512 + (j 1).val; omega
  · exact wv_block V c t d (j 2)
  · exact bv_block V c t (j 2)
  · show win0_6.index t (2 : Fin 3) * 160 + 1 * (j 2).val = (j 2).val; omega

/-! ## The blocks tile the arrays -/

/-- An index of the key array is in point t's block iff each coordinate is in the block's range on its axis. -/
theorem mem_key_block (t : Fin cfg0.N) (i : S16x2048x160.Idx) :
    i ∈ ((cfg0.win 5).blk t).view.set ↔ ∀ a : Fin 3, win0_5.index t a * S1x512x160.size a ≤ (i a).val ∧ (i a).val < win0_5.index t a * S1x512x160.size a + S1x512x160.size a := by
  show i ∈ ((View.whole main_v3_0).slice (win0_5.rect t)).set ↔ _
  rw [View.set_slice_whole, Rect.mem_set_unit]
  exact Iff.rfl

/-- The same for the value array. -/
theorem mem_value_block (t : Fin cfg0.N) (i : S16x2048x160.Idx) :
    i ∈ ((cfg0.win 6).blk t).view.set ↔ ∀ a : Fin 3, win0_6.index t a * S1x512x160.size a ≤ (i a).val ∧ (i a).val < win0_6.index t a * S1x512x160.size a + S1x512x160.size a := by
  show i ∈ ((View.whole main_v3_1).slice (win0_6.rect t)).set ↔ _
  rw [View.set_slice_whole, Rect.mem_set_unit]
  exact Iff.rfl

/-- Row i₁ of batch i₀ is in the block of the point at (i₀, i₁ / 512): the 16 × 4 blocks of 512 rows cover the 2048 rows
    of every batch. -/
theorem keys_cover (i : S16x2048x160.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 160 := (i 2).isLt
  obtain ⟨t, ht⟩ := key_block_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_key_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 160 ≤ (i 2).val ∧ (i 2).val < win0_5.index t (2 : Fin 3) * 160 + 160; omega

theorem values_cover (i : S16x2048x160.Idx) : ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 160 := (i 2).isLt
  obtain ⟨t, ht⟩ := value_block_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_value_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 160 ≤ (i 2).val ∧ (i 2).val < win0_6.index t (2 : Fin 3) * 160 + 160; omega

/-! ## The arrays after the region -/

/-- After the region the key array is the projection of y by (Wk, bk), the bias read off its [1,160] reshape. -/
theorem keys_final (c : Dev nD) :
    (dat0 V c).arrAt 5 cfg0.N
      = projArr (V c main_arg1) (V c main_arg4) (fun j => V c main_v1 (ix2 (0 : Fin 1) (j 0))) := by
  exact (dat0 V c).arrAt_eq_of_cover 5 (projArr (V c main_arg1) (V c main_arg4) (fun j => V c main_v1 (ix2 (0 : Fin 1) (j 0))))
    (fun t _ => keys_flushed V c t) keys_cover

/-- After the region the value array is the projection of y by (Wv, bv). -/
theorem values_final (c : Dev nD) :
    (dat0 V c).arrAt 6 cfg0.N
      = projArr (V c main_arg1) (V c main_arg6) (fun j => V c main_v2 (ix2 (0 : Fin 1) (j 0))) := by
  exact (dat0 V c).arrAt_eq_of_cover 6 (projArr (V c main_arg1) (V c main_arg6) (fun j => V c main_v2 (ix2 (0 : Fin 1) (j 0))))
    (fun t _ => values_flushed V c t) values_cover

end Cert.CrossAttn.Proj

end
-- ==== Proof.AttnPayload.lean ====
/-
  What the attention body stores, read at one element: for query row r of the loaded [1,1024,160] block of x, the
  row's projection q = x·Wq + bq, its scores against the 2048 loaded key rows, the softmax weights exp(s − max s), their
  sum l, the weighted sum of the loaded value rows times 1/l, plus x itself. The narrowings to bf16 are identities on
  the extended reals.
-/
import proofs.«156524_g83305185673742_cont_9to1c4b_147_8_alg».proof.Proof.Gen.KernelIdeal.Skeleton
import proofs.«156524_g83305185673742_cont_9to1c4b_147_8_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.CrossAttn.Attn

open Cert.KernelIdeal Cert.KernelIdeal.Gen Idealize.ShloMosaic Idealize.ShloMosaic.ValueIdx

/-! ## Column forms of the layout operations -/

section Columns
variable {α : Type}

/-- A vector `[a]` viewed as a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `r` of a `[a, b]` array reduced along its columns, with column `j` put back, is `(r, j)`. -/
theorem lift_cols {a b : ℕ} (h : (⟨2, ![a, b]⟩ : Shape).Reduces [1] ⟨1, ![a]⟩) (r : Fin a) (j : Fin b) :
    h.lift (ix1 r) j = ix2 r j :=
  funext fun c => match c with
    | ⟨0, _⟩ => Fin.ext rfl
    | ⟨1, _⟩ => Fin.ext rfl

end Columns

/-! ## The three products read at an index

Each contraction here has one contracted axis. The operand indices at an output index and a contraction position are read
axis by axis, and the contraction's sum is re-indexed by the contracted axis's one coordinate. -/

/-! ### The query projection: rows of the block times the weights, contracting the features -/

theorem lhs_proj_0 (i : S1024x160.Idx) (q : dot_S1024x160_S160x160_S1024x160_1_0_0_1_n_n.contr.Idx) :
    (dot_S1024x160_S160x160_S1024x160_1_0_0_1_n_n.lhsIdx i q 0).val = (i 0).val := by
  unfold DotDims.lhsIdx
  rw [dif_neg (show ¬(0 : Fin S1024x160.rank) ∈ dot_S1024x160_S160x160_S1024x160_1_0_0_1_n_n.lhsBatch by decide), dif_pos (show (0 : Fin S1024x160.rank) ∈ dot_S1024x160_S160x160_S1024x160_1_0_0_1_n_n.lhsNonContracting by decide)]
  rfl
theorem lhs_proj_1 (i : S1024x160.Idx) (q : dot_S1024x160_S160x160_S1024x160_1_0_0_1_n_n.contr.Idx) :
    (dot_S1024x160_S160x160_S1024x160_1_0_0_1_n_n.lhsIdx i q 1).val = (q ⟨0, by decide⟩).val :=
  dot_S1024x160_S160x160_S1024x160_1_0_0_1_n_n.lhsIdx_val_of_single rfl i q
theorem rhs_proj_0 (i : S1024x160.Idx) (q : dot_S1024x160_S160x160_S1024x160_1_0_0_1_n_n.contr.Idx) :
    (dot_S1024x160_S160x160_S1024x160_1_0_0_1_n_n.rhsIdx i q 0).val = (q ⟨0, by decide⟩).val :=
  dot_S1024x160_S160x160_S1024x160_1_0_0_1_n_n.rhsIdx_val_of_single rfl i q
theorem rhs_proj_1 (i : S1024x160.Idx) (q : dot_S1024x160_S160x160_S1024x160_1_0_0_1_n_n.contr.Idx) :
    (dot_S1024x160_S160x160_S1024x160_1_0_0_1_n_n.rhsIdx i q 1).val = (i 1).val := by
  unfold DotDims.rhsIdx
  rw [dif_neg (show ¬(1 : Fin S160x160.rank) ∈ dot_S1024x160_S160x160_S1024x160_1_0_0_1_n_n.rhsBatch by decide), dif_pos (show (1 : Fin S160x160.rank) ∈ dot_S1024x160_S160x160_S1024x160_1_0_0_1_n_n.rhsNonContracting by decide)]
  rfl

/-- The projection's product at row `r`, output feature `e`: the sum over the input features. -/
theorem projDot_apply (A : FVec Ideal S1024x160 .f32) (W : FVec Ideal S160x160 .f32) (r : Fin 1024) (e : Fin 160) :
    matmul dot_S1024x160_S160x160_S1024x160_1_0_0_1_n_n none A W (constant (F := Ideal) S1024x160 .f32 0x00000000#32) (ix2 r e)
      = ∑ d : Fin 160, A (ix2 r d) * W (ix2 d e) := by
  simp only [matmul]
  rw [Ideal.matmul_constant_zero_apply, ← Equiv.sum_comp (contrEquiv1 dot_S1024x160_S160x160_S1024x160_1_0_0_1_n_n 160 rfl rfl).symm]
  refine Finset.sum_congr rfl fun k _ => ?_
  have hk := contrEquiv1_symm_val dot_S1024x160_S160x160_S1024x160_1_0_0_1_n_n 160 rfl rfl k
  have el : dot_S1024x160_S160x160_S1024x160_1_0_0_1_n_n.lhsIdx (ix2 r e) ((contrEquiv1 dot_S1024x160_S160x160_S1024x160_1_0_0_1_n_n 160 rfl rfl).symm k) = ix2 r k := funext fun a => Fin.ext (by
    match a with
    | ⟨0, _⟩ => exact lhs_proj_0 _ _
    | ⟨1, _⟩ => exact (lhs_proj_1 _ _).trans hk)
  have er : dot_S1024x160_S160x160_S1024x160_1_0_0_1_n_n.rhsIdx (ix2 r e) ((contrEquiv1 dot_S1024x160_S160x160_S1024x160_1_0_0_1_n_n 160 rfl rfl).symm k) = ix2 k e := funext fun a => Fin.ext (by
    match a with
    | ⟨0, _⟩ => exact (rhs_proj_0 _ _).trans hk
    | ⟨1, _⟩ => exact rhs_proj_1 _ _)
  rw [el, er]

/-! ### The scores: query rows times key rows, contracting the features of both -/

theorem lhs_score_0 (i : S1024x2048.Idx) (q : dot_S1024x160_S2048x160_S1024x2048_1_1_0_0_n_n.contr.Idx) :
    (dot_S1024x160_S2048x160_S1024x2048_1_1_0_0_n_n.lhsIdx i q 0).val = (i 0).val := by
  unfold DotDims.lhsIdx
  rw [dif_neg (show ¬(0 : Fin S1024x160.rank) ∈ dot_S1024x160_S2048x160_S1024x2048_1_1_0_0_n_n.lhsBatch by decide), dif_pos (show (0 : Fin S1024x160.rank) ∈ dot_S1024x160_S2048x160_S1024x2048_1_1_0_0_n_n.lhsNonContracting by decide)]
  rfl
theorem lhs_score_1 (i : S1024x2048.Idx) (q : dot_S1024x160_S2048x160_S1024x2048_1_1_0_0_n_n.contr.Idx) :
    (dot_S1024x160_S2048x160_S1024x2048_1_1_0_0_n_n.lhsIdx i q 1).val = (q ⟨0, by decide⟩).val :=
  dot_S1024x160_S2048x160_S1024x2048_1_1_0_0_n_n.lhsIdx_val_of_single rfl i q
theorem rhs_score_0 (i : S1024x2048.Idx) (q : dot_S1024x160_S2048x160_S1024x2048_1_1_0_0_n_n.contr.Idx) :
    (dot_S1024x160_S2048x160_S1024x2048_1_1_0_0_n_n.rhsIdx i q 0).val = (i 1).val := by
  unfold DotDims.rhsIdx
  rw [dif_neg (show ¬(0 : Fin S2048x160.rank) ∈ dot_S1024x160_S2048x160_S1024x2048_1_1_0_0_n_n.rhsBatch by decide), dif_pos (show (0 : Fin S2048x160.rank) ∈ dot_S1024x160_S2048x160_S1024x2048_1_1_0_0_n_n.rhsNonContracting by decide)]
  rfl
theorem rhs_score_1 (i : S1024x2048.Idx) (q : dot_S1024x160_S2048x160_S1024x2048_1_1_0_0_n_n.contr.Idx) :
    (dot_S1024x160_S2048x160_S1024x2048_1_1_0_0_n_n.rhsIdx i q 1).val = (q ⟨0, by decide⟩).val :=
  dot_S1024x160_S2048x160_S1024x2048_1_1_0_0_n_n.rhsIdx_val_of_single rfl i q

/-- The score of query row `r` against key row `j`: the sum over the features of the two rows' products. -/
theorem scoreDot_apply (Q : FVec Ideal S1024x160 .bf16) (K : FVec Ideal S2048x160 .bf16) (r : Fin 1024) (j : Fin 2048) :
    matmul dot_S1024x160_S2048x160_S1024x2048_1_1_0_0_n_n none Q K (constant (F := Ideal) S1024x2048 .f32 0x00000000#32) (ix2 r j)
      = ∑ e : Fin 160, Q (ix2 r e) * K (ix2 j e) := by
  simp only [matmul]
  rw [Ideal.matmul_constant_zero_apply, ← Equiv.sum_comp (contrEquiv1 dot_S1024x160_S2048x160_S1024x2048_1_1_0_0_n_n 160 rfl rfl).symm]
  refine Finset.sum_congr rfl fun k _ => ?_
  have hk := contrEquiv1_symm_val dot_S1024x160_S2048x160_S1024x2048_1_1_0_0_n_n 160 rfl rfl k
  have el : dot_S1024x160_S2048x160_S1024x2048_1_1_0_0_n_n.lhsIdx (ix2 r j) ((contrEquiv1 dot_S1024x160_S2048x160_S1024x2048_1_1_0_0_n_n 160 rfl rfl).symm k) = ix2 r k := funext fun a => Fin.ext (by
    match a with
    | ⟨0, _⟩ => exact lhs_score_0 _ _
    | ⟨1, _⟩ => exact (lhs_score_1 _ _).trans hk)
  have er : dot_S1024x160_S2048x160_S1024x2048_1_1_0_0_n_n.rhsIdx (ix2 r j) ((contrEquiv1 dot_S1024x160_S2048x160_S1024x2048_1_1_0_0_n_n 160 rfl rfl).symm k) = ix2 j k := funext fun a => Fin.ext (by
    match a with
    | ⟨0, _⟩ => exact rhs_score_0 _ _
    | ⟨1, _⟩ => exact (rhs_score_1 _ _).trans hk)
  rw [el, er]

/-! ### The mix: weights times value rows, contracting the key positions -/

theorem lhs_mix_0 (i : S1024x160.Idx) (q : dot_S1024x2048_S2048x160_S1024x160_1_0_0_1_n_n.contr.Idx) :
    (dot_S1024x2048_S2048x160_S1024x160_1_0_0_1_n_n.lhsIdx i q 0).val = (i 0).val := by
  unfold DotDims.lhsIdx
  rw [dif_neg (show ¬(0 : Fin S1024x2048.rank) ∈ dot_S1024x2048_S2048x160_S1024x160_1_0_0_1_n_n.lhsBatch by decide), dif_pos (show (0 : Fin S1024x2048.rank) ∈ dot_S1024x2048_S2048x160_S1024x160_1_0_0_1_n_n.lhsNonContracting by decide)]
  rfl
theorem lhs_mix_1 (i : S1024x160.Idx) (q : dot_S1024x2048_S2048x160_S1024x160_1_0_0_1_n_n.contr.Idx) :
    (dot_S1024x2048_S2048x160_S1024x160_1_0_0_1_n_n.lhsIdx i q 1).val = (q ⟨0, by decide⟩).val :=
  dot_S1024x2048_S2048x160_S1024x160_1_0_0_1_n_n.lhsIdx_val_of_single rfl i q
theorem rhs_mix_0 (i : S1024x160.Idx) (q : dot_S1024x2048_S2048x160_S1024x160_1_0_0_1_n_n.contr.Idx) :
    (dot_S1024x2048_S2048x160_S1024x160_1_0_0_1_n_n.rhsIdx i q 0).val = (q ⟨0, by decide⟩).val :=
  dot_S1024x2048_S2048x160_S1024x160_1_0_0_1_n_n.rhsIdx_val_of_single rfl i q
theorem rhs_mix_1 (i : S1024x160.Idx) (q : dot_S1024x2048_S2048x160_S1024x160_1_0_0_1_n_n.contr.Idx) :
    (dot_S1024x2048_S2048x160_S1024x160_1_0_0_1_n_n.rhsIdx i q 1).val = (i 1).val := by
  unfold DotDims.rhsIdx
  rw [dif_neg (show ¬(1 : Fin S2048x160.rank) ∈ dot_S1024x2048_S2048x160_S1024x160_1_0_0_1_n_n.rhsBatch by decide), dif_pos (show (1 : Fin S2048x160.rank) ∈ dot_S1024x2048_S2048x160_S1024x160_1_0_0_1_n_n.rhsNonContracting by decide)]
  rfl

/-- The weighted sum of the value rows at query row `r`, feature `e`: the sum over the key positions. -/
theorem mixDot_apply (P : FVec Ideal S1024x2048 .bf16) (V : FVec Ideal S2048x160 .bf16) (r : Fin 1024) (e : Fin 160) :
    matmul dot_S1024x2048_S2048x160_S1024x160_1_0_0_1_n_n none P V (constant (F := Ideal) S1024x160 .f32 0x00000000#32) (ix2 r e)
      = ∑ j : Fin 2048, P (ix2 r j) * V (ix2 j e) := by
  simp only [matmul]
  rw [Ideal.matmul_constant_zero_apply, ← Equiv.sum_comp (contrEquiv1 dot_S1024x2048_S2048x160_S1024x160_1_0_0_1_n_n 2048 rfl rfl).symm]
  refine Finset.sum_congr rfl fun k _ => ?_
  have hk := contrEquiv1_symm_val dot_S1024x2048_S2048x160_S1024x160_1_0_0_1_n_n 2048 rfl rfl k
  have el : dot_S1024x2048_S2048x160_S1024x160_1_0_0_1_n_n.lhsIdx (ix2 r e) ((contrEquiv1 dot_S1024x2048_S2048x160_S1024x160_1_0_0_1_n_n 2048 rfl rfl).symm k) = ix2 r k := funext fun a => Fin.ext (by
    match a with
    | ⟨0, _⟩ => exact lhs_mix_0 _ _
    | ⟨1, _⟩ => exact (lhs_mix_1 _ _).trans hk)
  have er : dot_S1024x2048_S2048x160_S1024x160_1_0_0_1_n_n.rhsIdx (ix2 r e) ((contrEquiv1 dot_S1024x2048_S2048x160_S1024x160_1_0_0_1_n_n 2048 rfl rfl).symm k) = ix2 k e := funext fun a => Fin.ext (by
    match a with
    | ⟨0, _⟩ => exact (rhs_mix_0 _ _).trans hk
    | ⟨1, _⟩ => exact rhs_mix_1 _ _)
  rw [el, er]

/-! ## The two reductions along a row, and the stages of the body over variables -/

/-- A row's maximum from −∞: the fold of `max` over the row's entries. -/
theorem rowMax_apply (S : FVec Ideal S1024x2048 .f32) (h : S1024x2048.Reduces [1] S1024) (hφ : FKind.Formats .f32)
    (hacc : (0xFF800000#32 : BitVec 32) = 0xFF800000#32) (r : Fin 1024) :
    multiReduction (F := Ideal) .maximumf [1] S1024 S 0xFF800000#32 h hφ hacc (ix1 r)
      = (Finset.univ : Finset (Fin 2048)).fold max negInf (fun j => S (ix2 r j)) := by
  refine (Ideal.multiReduction_maximumf_single S 0xFF800000#32 h hφ hacc (ix1 r)).trans ?_
  exact congrArg (fun f : Fin 2048 → EReal => (Finset.univ : Finset (Fin 2048)).fold max negInf f)
    (funext fun j => congrArg S (lift_cols h r j))

/-- A row's sum: the sum of the row's entries. -/
theorem rowSum_apply (P : FVec Ideal S1024x2048 .f32) (h : S1024x2048.Reduces [1] S1024) (hφ : FKind.Formats .f32)
    (hacc : (0x00000000#32 : BitVec 32) = 0x00000000#32) (r : Fin 1024) :
    multiReduction (F := Ideal) .add [1] S1024 P 0x00000000#32 h hφ hacc (ix1 r) = ∑ j : Fin 2048, P (ix2 r j) := by
  refine (Ideal.multiReduction_add_single P 0x00000000#32 h hφ hacc (ix1 r)).trans ?_
  exact Finset.sum_congr rfl fun j _ => congrArg P (lift_cols h r j)

/-! ## The body's intermediate arrays, named

The stored value is a chain of whole-array operations. Each link is named here as a function of the values the body
loaded, and read at an index by the lemmas above; the payload is the last link (`k1_pay1_eq`). -/

section Blocks
variable (x0 : FVec Ideal S1x1024x160 .f32) (w : FVec Ideal S160x160 .f32) (β : FVec Ideal S1x160 .f32)
  (kb vb : FVec Ideal S1x2048x160 .bf16)

/-- The query rows q = x·Wq + bq of the block. -/
def qBlock : FVec Ideal S1024x160 .f32 :=
  addf (matmul dot_S1024x160_S160x160_S1024x160_1_0_0_1_n_n none (shapeCast S1024x160 x0 shapeCasts_S1x1024x160_S1024x160) w
      (constant (F := Ideal) S1024x160 .f32 0x00000000#32))
    (broadcastTo S1024x160 (shapeCast S1x160 β shapeCasts_S1x160_S1x160) broadcasts_S1x160_S1024x160)

/-- The scores s = q·kᵀ of every query row against every key row. -/
def scoreBlock : FVec Ideal S1024x2048 .f32 :=
  matmul dot_S1024x160_S2048x160_S1024x2048_1_1_0_0_n_n none (truncf .bf16 (qBlock x0 w β) bitsLt_bf16_f32)
    (shapeCast S2048x160 kb shapeCasts_S1x2048x160_S2048x160) (constant (F := Ideal) S1024x2048 .f32 0x00000000#32)

/-- Each query row's largest score. -/
def maxBlock : FVec Ideal S1024 .f32 :=
  multiReduction (F := Ideal) .maximumf [1] S1024 (scoreBlock x0 w β kb) 0xFF800000#32 reduces_S1024x2048_S1024 (.inl rfl) rfl

/-- The unnormalised weights exp(s − max s). -/
def weightBlock : FVec Ideal S1024x2048 .f32 :=
  exp (subf (scoreBlock x0 w β kb)
    (broadcastTo S1024x2048 (shapeCast S1024x1 (maxBlock x0 w β kb) shapeCasts_S1024_S1024x1) broadcasts_S1024x1_S1024x2048))

/-- Each query row's normaliser: the sum of its weights. -/
def sumBlock : FVec Ideal S1024 .f32 :=
  multiReduction (F := Ideal) .add [1] S1024 (weightBlock x0 w β kb) 0x00000000#32 reduces_S1024x2048_S1024 (.inl rfl) rfl

/-- The weighted sums of the value rows, before normalisation. -/
def mixBlock : FVec Ideal S1024x160 .f32 :=
  matmul dot_S1024x2048_S2048x160_S1024x160_1_0_0_1_n_n none (truncf .bf16 (weightBlock x0 w β kb) bitsLt_bf16_f32)
    (shapeCast S2048x160 vb shapeCasts_S1x2048x160_S2048x160) (constant (F := Ideal) S1024x160 .f32 0x00000000#32)

/-- The stored value is the mix, times the column 1/l spread along the features, plus the block of x, as a [1,1024,160] block. -/
theorem k1_pay1_eq :
    k1_pay1 (F := Ideal) x0 w β kb vb
      = shapeCast S1x1024x160
          (addf
            (mulf (mixBlock x0 w β kb vb)
              (broadcastTo S1024x160
                (divf (broadcast S1024x1 (Scalar.ofBits (F := Ideal) .f32 0x3F800000#32))
                  (shapeCast S1024x1 (sumBlock x0 w β kb) shapeCasts_S1024_S1024x1))
                broadcasts_S1024x1_S1024x160))
            (shapeCast S1024x160 x0 shapeCasts_S1x1024x160_S1024x160))
          shapeCasts_S1024x160_S1x1024x160 := rfl

/-- The query row `r` at feature `e` is the projection of row `r` of the block. -/
theorem qBlock_apply (r : Fin 1024) (e : Fin 160) :
    qBlock x0 w β (ix2 r e) = projRow (fun d => x0 (ix3 (0 : Fin 1) r d)) w (fun e'' => β (ix2 (0 : Fin 1) e'')) e := by
  unfold qBlock projRow
  rw [addf_apply, projDot_apply, broadcastTo_1b_ab_apply, shapeCast_self]
  exact congrArg (· + β (ix2 (0 : Fin 1) e)) (Finset.sum_congr rfl fun d _ => by rw [shapeCast_1ab_ab_apply])

/-- The score of query row `r` against key row `j`. -/
theorem scoreBlock_apply (r : Fin 1024) (j : Fin 2048) :
    scoreBlock x0 w β kb (ix2 r j)
      = scoreRow (fun e' => projRow (fun d => x0 (ix3 (0 : Fin 1) r d)) w (fun e'' => β (ix2 (0 : Fin 1) e'')) e')
          (fun j e' => kb (ix3 (0 : Fin 1) j e')) j := by
  unfold scoreBlock scoreRow
  rw [scoreDot_apply]
  exact Finset.sum_congr rfl fun e _ => by rw [truncf_apply, qBlock_apply, shapeCast_1ab_ab_apply]

/-- Row `r`'s largest score. -/
theorem maxBlock_apply (r : Fin 1024) :
    maxBlock x0 w β kb (ix1 r)
      = maxRow (fun e' => projRow (fun d => x0 (ix3 (0 : Fin 1) r d)) w (fun e'' => β (ix2 (0 : Fin 1) e'')) e')
          (fun j e' => kb (ix3 (0 : Fin 1) j e')) := by
  unfold maxBlock maxRow
  refine (rowMax_apply _ _ _ _ r).trans ?_
  exact congrArg (fun f : Fin 2048 → EReal => (Finset.univ : Finset (Fin 2048)).fold max negInf f)
    (funext fun j => scoreBlock_apply x0 w β kb r j)

/-- The weight of key row `j` for query row `r`. -/
theorem weightBlock_apply (r : Fin 1024) (j : Fin 2048) :
    weightBlock x0 w β kb (ix2 r j)
      = weightRow (fun e' => projRow (fun d => x0 (ix3 (0 : Fin 1) r d)) w (fun e'' => β (ix2 (0 : Fin 1) e'')) e')
          (fun j e' => kb (ix3 (0 : Fin 1) j e')) j := by
  unfold weightBlock weightRow
  show Ideal.exp (subf (scoreBlock x0 w β kb) _ (ix2 r j)) = _
  rw [subf_apply, broadcastTo_a1_ab_apply, shapeCast_a_a1_apply, scoreBlock_apply, maxBlock_apply]

/-- Row `r`'s normaliser. -/
theorem sumBlock_apply (r : Fin 1024) :
    sumBlock x0 w β kb (ix1 r)
      = denomRow (fun e' => projRow (fun d => x0 (ix3 (0 : Fin 1) r d)) w (fun e'' => β (ix2 (0 : Fin 1) e'')) e')
          (fun j e' => kb (ix3 (0 : Fin 1) j e')) := by
  unfold sumBlock denomRow
  refine (rowSum_apply _ _ _ _ r).trans ?_
  exact Finset.sum_congr rfl fun j _ => weightBlock_apply x0 w β kb r j

/-- Row `r`'s weighted sum of the value rows at feature `e`. -/
theorem mixBlock_apply (r : Fin 1024) (e : Fin 160) :
    mixBlock x0 w β kb vb (ix2 r e)
      = ∑ j : Fin 2048,
          weightRow (fun e' => projRow (fun d => x0 (ix3 (0 : Fin 1) r d)) w (fun e'' => β (ix2 (0 : Fin 1) e'')) e')
            (fun j e' => kb (ix3 (0 : Fin 1) j e')) j * vb (ix3 (0 : Fin 1) j e) := by
  unfold mixBlock
  rw [mixDot_apply]
  exact Finset.sum_congr rfl fun j _ => by rw [truncf_apply, weightBlock_apply, shapeCast_1ab_ab_apply]

end Blocks

/-- The result store's value at row r, feature e of the block. -/
theorem attn_payload (x0 : Vec Ideal S1x1024x160 .f32) (w : Vec Ideal S160x160 .f32) (β : Vec Ideal S1x160 .f32)
    (kb vb : Vec Ideal S1x2048x160 .bf16) (r : Fin 1024) (e : Fin 160) :
    k1_pay1 x0 w β kb vb (ix3 (0 : Fin 1) r e)
      = mixRow (fun e' => projRow (fun d => x0 (ix3 (0 : Fin 1) r d)) w (fun e'' => β (ix2 (0 : Fin 1) e'')) e')
          (fun j e' => kb (ix3 (0 : Fin 1) j e')) (fun j e' => vb (ix3 (0 : Fin 1) j e')) e
        + x0 (ix3 (0 : Fin 1) r e) := by
  rw [k1_pay1_eq]
  refine (shapeCast_ab_1ab_apply _ _ (0 : Fin 1) r e).trans ?_
  rw [addf_apply, mulf_apply, mixBlock_apply, broadcastTo_a1_ab_apply, divf_apply, broadcast_apply, shapeCast_a_a1_apply,
    sumBlock_apply, shapeCast_1ab_ab_apply]
  rfl

end Cert.CrossAttn.Attn

end
-- ==== Proof.AttnBlocks.lean ====
/-
  The attention region: 32 grid points (batch b, query block t of 1024 rows); each point reads x's block, the whole key
  and value arrays of batch b, and writes rows 1024t … 1024t+1023 of batch b of the result: the softmax-weighted sum of
  the value rows, normalised after the contraction, plus x. The blocks tile the result array.
-/
import proofs.«156524_g83305185673742_cont_9to1c4b_147_8_alg».proof.Proof.Gen.KernelIdeal.Frame
import proofs.«156524_g83305185673742_cont_9to1c4b_147_8_alg».proof.Proof.Spec
import proofs.«156524_g83305185673742_cont_9to1c4b_147_8_alg».proof.Proof.AttnPayload
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.CrossAttn.Attn

open Cert.KernelIdeal Cert.KernelIdeal.Gen Idealize.ShloMosaic Idealize.ShloMosaic.TcCoe Idealize.SL.Sem Idealize.ShloMosaic.ValueIdx
open Idealize.ShloMosaic.Pipeline (Dat)

/- the TensorCore's buffer contents when the region is entered -/
variable (V : (c : Dev nD) → (b : Ref sig .tc) → Buf (Elt Ideal) ((c : Thread nD τ).loc b))

namespace Blocks

/-- The zero offsets of a rank-3 and of a rank-2 block, spelt as the constant function. -/
theorem off3 : (![0, 0, 0] : Fin 3 → Nat) = fun _ => 0 := funext fun a => by fin_cases a <;> rfl
theorem off2 : (![0, 0] : Fin 2 → Nat) = fun _ => 0 := funext fun a => by fin_cases a <;> rfl

/-! ## The five blocks a grid point reads, each at its literal shape -/

/-- The block of x: 1024 query rows of one batch. -/
abbrev queryBlock (c : Dev nD) (t : Fin cfg1.N) : Vec Ideal S1x1024x160 .f32 := iblk1 V c 0 t
/-- The query projection's weights, whole. -/
abbrev wqBlock (c : Dev nD) (t : Fin cfg1.N) : Vec Ideal S160x160 .f32 := iblk1 V c 1 t
/-- The query projection's bias as a [1,160] row, whole. -/
abbrev bqBlock (c : Dev nD) (t : Fin cfg1.N) : Vec Ideal S1x160 .f32 := iblk1 V c 2 t
/-- The 2048 key rows of the batch. -/
abbrev keyBlock (c : Dev nD) (t : Fin cfg1.N) : Vec Ideal S1x2048x160 .bf16 := iblk1 V c 3 t
/-- The 2048 value rows of the batch. -/
abbrev valueBlock (c : Dev nD) (t : Fin cfg1.N) : Vec Ideal S1x2048x160 .bf16 := iblk1 V c 4 t

/-- The index maps over the 32 grid points: x's block moves with the result's block; the weights and the bias stay at
    block 0; the key and value blocks follow the result's batch and take all its rows; the result's block index is
    (batch < 16, row block < 2, 0). -/
theorem index_facts : ∀ t : Fin cfg1.N,
    win1_0.index t (0 : Fin 3) = win1_5.index t (0 : Fin 3)
    ∧ win1_0.index t (1 : Fin 3) = win1_5.index t (1 : Fin 3)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_5.index t (0 : Fin 3)
    ∧ win1_3.index t (1 : Fin 3) = 0 ∧ win1_3.index t (2 : Fin 3) = 0
    ∧ win1_4.index t (0 : Fin 3) = win1_5.index t (0 : Fin 3)
    ∧ win1_4.index t (1 : Fin 3) = 0 ∧ win1_4.index t (2 : Fin 3) = 0
    ∧ win1_5.index t (0 : Fin 3) ≤ 15 ∧ win1_5.index t (1 : Fin 3) ≤ 1 ∧ win1_5.index t (2 : Fin 3) = 0 :=
  (by decide +kernel : ∀ t : Fin grid1.N, _)

/-- Every (batch, row block) is some grid point's. -/
theorem index_onto : ∀ (q0 : Fin 16) (q1 : Fin 2), ∃ t : Fin cfg1.N, win1_5.index t = ![q0.val, q1.val, 0] :=
  (by decide +kernel : ∀ (q0 : Fin 16) (q1 : Fin 2), ∃ t : Fin grid1.N, win1_5.index t = ![q0.val, q1.val, 0])

/-! ## Each block read where the result's rectangle says -/

/-- Row r of x's block at grid point t is row 1024·(row block) + r of the point's batch. -/
theorem queryBlock_apply (c : Dev nD) (t : Fin cfg1.N) (r : Fin 1024) (d : Fin 160) (b : Fin 16) (i : Fin 2048)
    (hb : b.val = win1_5.index t (0 : Fin 3)) (hi : i.val = win1_5.index t (1 : Fin 3) * 1024 + r.val) :
    queryBlock V c t (ix3 (0 : Fin 1) r d) = V c main_arg0 (ix3 b i d) := by
  obtain ⟨e0, e1, e2, -⟩ := index_facts t
  show V c main_arg0 (((cfg1.win 0).blk t).view.emb (ix3 (0 : Fin 1) r d)) = V c main_arg0 (ix3 b i d)
  refine congrArg (V c main_arg0) ?_
  funext a
  apply Fin.ext
  match a with
  | ⟨0, _⟩ => show win1_0.index t (0 : Fin 3) * 1 + 1 * 0 = b.val; omega
  | ⟨1, _⟩ => show win1_0.index t (1 : Fin 3) * 1024 + 1 * r.val = i.val; omega
  | ⟨2, _⟩ => show win1_0.index t (2 : Fin 3) * 160 + 1 * d.val = d.val; omega

/-- The weights' block is the whole weight array. -/
theorem wqBlock_eq (c : Dev nD) (t : Fin cfg1.N) : wqBlock V c t = V c main_arg2 := by
  obtain ⟨-, -, -, e0, e1, -⟩ := index_facts t
  funext y
  show V c main_arg2 (((cfg1.win 1).blk t).view.emb y) = V c main_arg2 y
  refine congrArg (V c main_arg2) ?_
  funext a
  apply Fin.ext
  match a with
  | ⟨0, _⟩ => show win1_1.index t (0 : Fin 2) * 160 + 1 * (y 0).val = (y 0).val; omega
  | ⟨1, _⟩ => show win1_1.index t (1 : Fin 2) * 160 + 1 * (y 1).val = (y 1).val; omega

/-- The bias' block is the whole [1,160] bias row. -/
theorem bqBlock_eq (c : Dev nD) (t : Fin cfg1.N) : bqBlock V c t = V c main_v0 := by
  obtain ⟨-, -, -, -, -, e0, e1, -⟩ := index_facts t
  funext y
  show V c main_v0 (((cfg1.win 2).blk t).view.emb y) = V c main_v0 y
  refine congrArg (V c main_v0) ?_
  funext a
  apply Fin.ext
  match a with
  | ⟨0, _⟩ => show win1_2.index t (0 : Fin 2) * 1 + 1 * (y 0).val = (y 0).val; omega
  | ⟨1, _⟩ => show win1_2.index t (1 : Fin 2) * 160 + 1 * (y 1).val = (y 1).val; omega

/-- Row j of the key block at grid point t is key row j of the point's batch. -/
theorem keyBlock_apply (c : Dev nD) (t : Fin cfg1.N) (j : Fin 2048) (d : Fin 160) (b : Fin 16)
    (hb : b.val = win1_5.index t (0 : Fin 3)) :
    keyBlock V c t (ix3 (0 : Fin 1) j d) = V c main_v3_0 (ix3 b j d) := by
  obtain ⟨-, -, -, -, -, -, -, e0, e1, e2, -⟩ := index_facts t
  show V c main_v3_0 (((cfg1.win 3).blk t).view.emb (ix3 (0 : Fin 1) j d)) = V c main_v3_0 (ix3 b j d)
  refine congrArg (V c main_v3_0) ?_
  funext a
  apply Fin.ext
  match a with
  | ⟨0, _⟩ => show win1_3.index t (0 : Fin 3) * 1 + 1 * 0 = b.val; omega
  | ⟨1, _⟩ => show win1_3.index t (1 : Fin 3) * 2048 + 1 * j.val = j.val; omega
  | ⟨2, _⟩ => show win1_3.index t (2 : Fin 3) * 160 + 1 * d.val = d.val; omega

/-- Row j of the value block at grid point t is value row j of the point's batch. -/
theorem valueBlock_apply (c : Dev nD) (t : Fin cfg1.N) (j : Fin 2048) (d : Fin 160) (b : Fin 16)
    (hb : b.val = win1_5.index t (0 : Fin 3)) :
    valueBlock V c t (ix3 (0 : Fin 1) j d) = V c main_v3_1 (ix3 b j d) := by
  obtain ⟨-, -, -, -, -, -, -, -, -, -, e0, e1, e2, -⟩ := index_facts t
  show V c main_v3_1 (((cfg1.win 4).blk t).view.emb (ix3 (0 : Fin 1) j d)) = V c main_v3_1 (ix3 b j d)
  refine congrArg (V c main_v3_1) ?_
  funext a
  apply Fin.ext
  match a with
  | ⟨0, _⟩ => show win1_4.index t (0 : Fin 3) * 1 + 1 * 0 = b.val; omega
  | ⟨1, _⟩ => show win1_4.index t (1 : Fin 3) * 2048 + 1 * j.val = j.val; omega
  | ⟨2, _⟩ => show win1_4.index t (2 : Fin 3) * 160 + 1 * d.val = d.val; omega

/-! ## The stored value as the attention function, over any blocks that read the arrays so -/

/-- If a block of x holds row i of batch b at its row r, the weights' block is Wq, the bias row reads bq, and the key
    and value blocks hold the rows of batch b, then what the body stores at (r, e) is the attention output at (b, i, e). -/
theorem attnOut_of_blocks (x : Seq.Idx → EReal) (Wq : Mat.Idx → EReal) (bq : S1x160.Idx → EReal) (kk vv : Seq.Idx → EReal)
    (x0 : Vec Ideal S1x1024x160 .f32) (w : Vec Ideal S160x160 .f32) (β : Vec Ideal S1x160 .f32)
    (kb vb : Vec Ideal S1x2048x160 .bf16) (b : Fin 16) (i : Fin 2048) (r : Fin 1024)
    (hx : ∀ d, x0 (ix3 (0 : Fin 1) r d) = x (ix3 b i d)) (hw : w = Wq) (hβ : β = bq)
    (hk : ∀ j d, kb (ix3 (0 : Fin 1) j d) = kk (ix3 b j d)) (hv : ∀ j d, vb (ix3 (0 : Fin 1) j d) = vv (ix3 b j d))
    (e : Fin 160) :
    k1_pay1 x0 w β kb vb (ix3 (0 : Fin 1) r e)
      = attnOut x Wq (fun j => bq (ix2 (0 : Fin 1) (j 0))) kk vv b i e := by
  rw [attn_payload]
  subst hw hβ
  unfold attnOut proj
  simp only [hx, hk, hv]

/-! ## What a grid point writes back, and the blocks' cover of the result array -/

/-- What grid point t writes back is block t of the attention array of the five arrays as the region finds them. -/
theorem written_eq (c : Dev nD) (t : Fin cfg1.N) :
    (dat1 V c).flushed 5 t = ((cfg1.win 5).blk t).view.read (Elt Ideal)
      (attnArr (V c main_arg0) (V c main_arg2) (fun j => V c main_v0 (ix2 (0 : Fin 1) (j 0))) (V c main_v3_0) (V c main_v3_1)) := by
  show (cfg1.win 5).cut (grid1.coords t) ((dat1 V c).after 5 t) = _
  rw [after1_5]
  unfold out1_5
  rw [View.canon_unit_zero off3]
  simp only [View.ld_unit_zero (S := S1x1024x160) off3, View.ld_unit_zero (S := S160x160) off2,
    View.ld_unit_zero (S := S1x160) off2, View.ld_unit_zero (S := S1x2048x160) off3]
  have hf := index_facts t
  have hb : win1_5.index t (0 : Fin 3) < 16 := by omega
  funext y
  obtain ⟨a, r, e, rfl⟩ : ∃ (a : Fin 1) (r : Fin 1024) (e : Fin 160), y = ix3 a r e :=
    ⟨y 0, y 1, y 2, eq_ix3 (n0 := 1) (n1 := 1024) (n2 := 160) y⟩
  obtain rfl : a = 0 := Subsingleton.elim _ _
  have hi : win1_5.index t (1 : Fin 3) * 1024 + r.val < 2048 := by have := r.isLt; omega
  have hidx : ((cfg1.win 5).blk t).view.emb (ix3 (0 : Fin 1) r e)
      = ix3 (⟨win1_5.index t (0 : Fin 3), hb⟩ : Fin 16) (⟨win1_5.index t (1 : Fin 3) * 1024 + r.val, hi⟩ : Fin 2048) e := by
    funext a
    apply Fin.ext
    match a with
    | ⟨0, _⟩ => show win1_5.index t (0 : Fin 3) * 1 + 1 * 0 = win1_5.index t (0 : Fin 3); omega
    | ⟨1, _⟩ => show win1_5.index t (1 : Fin 3) * 1024 + 1 * r.val = win1_5.index t (1 : Fin 3) * 1024 + r.val; omega
    | ⟨2, _⟩ => show win1_5.index t (2 : Fin 3) * 160 + 1 * e.val = e.val; omega
  show k1_pay1 (queryBlock V c t) (wqBlock V c t) (bqBlock V c t) (keyBlock V c t) (valueBlock V c t) (ix3 (0 : Fin 1) r e)
    = attnArr (V c main_arg0) (V c main_arg2) (fun j => V c main_v0 (ix2 (0 : Fin 1) (j 0))) (V c main_v3_0) (V c main_v3_1)
        (((cfg1.win 5).blk t).view.emb (ix3 (0 : Fin 1) r e))
  rw [hidx, attnArr_ix3]
  exact attnOut_of_blocks (V c main_arg0) (V c main_arg2) (V c main_v0) (V c main_v3_0) (V c main_v3_1)
    (queryBlock V c t) (wqBlock V c t) (bqBlock V c t) (keyBlock V c t) (valueBlock V c t) _ _ r
    (fun d => queryBlock_apply V c t r d _ _ rfl rfl) (wqBlock_eq V c t) (bqBlock_eq V c t)
    (fun j d => keyBlock_apply V c t j d _ rfl) (fun j d => valueBlock_apply V c t j d _ rfl) e

/-- An index of the result array is in grid point t's block iff each coordinate is in the block's range on its axis. -/
theorem mem_block (t : Fin cfg1.N) (i : S16x2048x160.Idx) :
    i ∈ ((cfg1.win 5).blk t).view.set ↔ ∀ a : Fin 3, win1_5.index t a * S1x1024x160.size a ≤ (i a).val
      ∧ (i a).val < win1_5.index t a * S1x1024x160.size a + S1x1024x160.size a := by
  show i ∈ ((View.whole main_v4).slice (win1_5.rect t)).set ↔ _
  rw [View.set_slice_whole, Rect.mem_set_unit]
  exact Iff.rfl

/-- Every index (b, i, e) of the result array is in the block of the grid point (batch b, row block i / 1024). -/
theorem covered (i : S16x2048x160.Idx) :
    ∃ t : Fin cfg1.N, (cfg1.win 5).flush t = true ∧ i ∈ ((cfg1.win 5).blk t).view.set := by
  have h0 : (i 0).val < 16 := (i 0).isLt
  have h1 : (i 1).val < 2048 := (i 1).isLt
  have h2 : (i 2).val < 160 := (i 2).isLt
  obtain ⟨t, ht⟩ := index_onto ⟨(i 0).val, h0⟩ ⟨(i 1).val / 1024, by omega⟩
  have q0 : win1_5.index t (0 : Fin 3) = (i 0).val := congrFun ht 0
  have q1 : win1_5.index t (1 : Fin 3) = (i 1).val / 1024 := congrFun ht 1
  have q2 : win1_5.index t (2 : Fin 3) = 0 := congrFun ht 2
  refine ⟨t, flush1_5 t, ?_⟩
  rw [mem_block]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 160 ≤ (i 2).val ∧ (i 2).val < win1_5.index t (2 : Fin 3) * 160 + 160; omega

end Blocks

/-- After the region the result array is the attention function (kernel arrangement) of the five arrays it reads. -/
theorem attn_final (c : Dev nD) :
    (dat1 V c).arrAt 5 cfg1.N
      = attnArr (V c main_arg0) (V c main_arg2) (fun j => V c main_v0 (ix2 (0 : Fin 1) (j 0))) (V c main_v3_0) (V c main_v3_1) := by
  exact (dat1 V c).arrAt_eq_of_cover 5 _ (fun t _ => Blocks.written_eq V c t) Blocks.covered

end Cert.CrossAttn.Attn

end
-- ==== Proof.KernelValue.lean ====
/-
  The kernel program's result array as ONE function of the eight argument arrays.  @main runs three bias reshapes
  ([160] to [1,160]), the projection region (which fills the key and value arrays) and the attention region (which
  fills the result).  Reading backwards: the result is the attention function of x, Wq, the reshaped bq and the key and
  value arrays as the second region finds them; those two are the projections of y the first region left; the
  remaining arrays are the arguments as launched, and a bias read at (0, e) of its reshape is the bias at e.
-/
import proofs.«156524_g83305185673742_cont_9to1c4b_147_8_alg».proof.Proof.KernelRun
import proofs.«156524_g83305185673742_cont_9to1c4b_147_8_alg».proof.Proof.ProjBlocks
import proofs.«156524_g83305185673742_cont_9to1c4b_147_8_alg».proof.Proof.AttnBlocks
import proofs.«156524_g83305185673742_cont_9to1c4b_147_8_alg».proof.Proof.Spec
import Idealize.ShloMosaic.Lib.Pipeline.Value
import Idealize.ShloMosaic.Lib.StableHlo.Run
import Idealize.ShloMosaic.Lib.ValueIdx

noncomputable section

namespace Cert.CrossAttn.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-! ## A bias through its reshape -/

/-- A [160] row reshaped to [1,160] and read at (0, e) is the row at e. -/
theorem bias_row (src : S160.Idx → EReal) :
    (fun j : Row.Idx => shapeCast S1x160 src shapeCasts_S160_S1x160 (ix2 (0 : Fin 1) (j 0))) = src := by
  funext j
  rw [shapeCast_addUnit_apply (d := ![160]) src shapeCasts_S160_S1x160 (ix2 (0 : Fin 1) (j 0))]
  exact congrArg src (funext fun a => by match a with | ⟨0, _⟩ => rfl)

/-! ## The contents the projection region is entered with -/

theorem entry0_y (c : Dev nD) : V1 m ρ c main_arg1 = m ((c : Thread nD τ).loc main_arg1) := by
  show StableHlo.after hostOps0 (W0 m ρ c) (Proc.devRef .tc main_arg1) = _
  after_results
theorem entry0_Wk (c : Dev nD) : V1 m ρ c main_arg4 = m ((c : Thread nD τ).loc main_arg4) := by
  show StableHlo.after hostOps0 (W0 m ρ c) (Proc.devRef .tc main_arg4) = _
  after_results
theorem entry0_Wv (c : Dev nD) : V1 m ρ c main_arg6 = m ((c : Thread nD τ).loc main_arg6) := by
  show StableHlo.after hostOps0 (W0 m ρ c) (Proc.devRef .tc main_arg6) = _
  after_results
theorem entry0_bk (c : Dev nD) :
    (V1 m ρ c main_v1 : S1x160.Idx → EReal) = shapeCast S1x160 (m ((c : Thread nD τ).loc main_arg5)) shapeCasts_S160_S1x160 := by
  show StableHlo.after hostOps0 (W0 m ρ c) (Proc.devRef .tc main_v1) = _
  after_results
  rfl
theorem entry0_bv (c : Dev nD) :
    (V1 m ρ c main_v2 : S1x160.Idx → EReal) = shapeCast S1x160 (m ((c : Thread nD τ).loc main_arg7)) shapeCasts_S160_S1x160 := by
  show StableHlo.after hostOps0 (W0 m ρ c) (Proc.devRef .tc main_v2) = _
  after_results
  rfl

/-! ## The contents the attention region is entered with -/

theorem entry1_x (c : Dev nD) : V2 m ρ c main_arg0 = m ((c : Thread nD τ).loc main_arg0) := by
  refine (W2_of_ne m ρ c main_arg0 (by decide)).trans ?_
  show StableHlo.after hostOps0 (W0 m ρ c) (Proc.devRef .tc main_arg0) = _
  after_results
theorem entry1_Wq (c : Dev nD) : V2 m ρ c main_arg2 = m ((c : Thread nD τ).loc main_arg2) := by
  refine (W2_of_ne m ρ c main_arg2 (by decide)).trans ?_
  show StableHlo.after hostOps0 (W0 m ρ c) (Proc.devRef .tc main_arg2) = _
  after_results
theorem entry1_bq (c : Dev nD) :
    (V2 m ρ c main_v0 : S1x160.Idx → EReal) = shapeCast S1x160 (m ((c : Thread nD τ).loc main_arg3)) shapeCasts_S160_S1x160 := by
  refine (W2_of_ne m ρ c main_v0 (by decide)).trans ?_
  show StableHlo.after hostOps0 (W0 m ρ c) (Proc.devRef .tc main_v0) = _
  after_results
  rfl

/-- The key array the attention region finds is the projection of y by (Wk, bk). -/
theorem entry1_keys (c : Dev nD) :
    V2 m ρ c main_v3_0 = projArr (m ((c : Thread nD τ).loc main_arg1)) (m ((c : Thread nD τ).loc main_arg4)) (m ((c : Thread nD τ).loc main_arg5)) := by
  refine (W2_arr m ρ c 5).trans ?_
  rw [Proj.keys_final (V1 m ρ) c, entry0_y, entry0_Wk, entry0_bk, bias_row]

/-- The value array it finds is the projection of y by (Wv, bv). -/
theorem entry1_values (c : Dev nD) :
    V2 m ρ c main_v3_1 = projArr (m ((c : Thread nD τ).loc main_arg1)) (m ((c : Thread nD τ).loc main_arg6)) (m ((c : Thread nD τ).loc main_arg7)) := by
  refine (W2_arr m ρ c 6).trans ?_
  rw [Proj.values_final (V1 m ρ) c, entry0_y, entry0_Wv, entry0_bv, bias_row]

/-! ## The result -/

/-- The result array at the last boundary is the attention function of the eight arguments (kernel arrangement). -/
theorem result_eq (c : Dev nD) :
    W3 m ρ c (Proc.devRef .tc main_v4)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W3_arr m ρ c 5).trans ?_
  rw [Attn.attn_final (V2 m ρ) c, entry1_x, entry1_Wq, entry1_bq, bias_row, entry1_keys, entry1_values]
  rfl

/-- The kernel program's run with its result named: every weakly fair execution terminates with the result array at
    the attention function of the arguments and the arguments unchanged. -/
theorem run : θ_run defs (onTc (τ := τ) (main (F := Ideal))) ⟨m, fun _ => 0, ρ⟩ (fun r => ∀ c : Dev nD,
      r.2.mem ((c.tc : Thread nD τ).loc main_v4)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Run.run_main m ρ)

end Cert.CrossAttn.Kernel

end
-- ==== Proof.lean ====
/-
  Single-head cross-attention with a residual: out = softmax(q·kᵀ)·v + x with q = x·Wq + bq, k = y·Wk + bk, v = y·Wv + bv.
  The kernel program computes k and v in one region (block by block over y), then in a second region, per block of
  1024 query rows, the scores against all 2048 key rows, the weights w = exp(s − max s), their sum l, and
  (Σ_j w_j·v_j)·(1/l) + x: the softmax is normalised AFTER the contraction with v.  The reference normalises the
  weights first: Σ_j (w_j/l)·v_j + x.  On the extended reals these are one array wherever the arguments are real
  numbers, which the precondition (every input finite) gives: then every score, weight and row sum is real, l > 0, and
  both are (Σ_j w_j·v_j)/l + x.  A narrowing of format is the identity on the extended reals, and a matrix product or
  a sum is the same finite sum however it is tiled.
  The three programs' runs: the kernel programs' frames are the generated ones; the reference's is its generated run.
  Nothing of the word-level kernel is rewritten by the idealization, so that conjunct is trivial.
-/
import proofs.«156524_g83305185673742_cont_9to1c4b_147_8_alg».proof.Defs
import proofs.«156524_g83305185673742_cont_9to1c4b_147_8_alg».proof.Proof.Gen.Kernel
import proofs.«156524_g83305185673742_cont_9to1c4b_147_8_alg».proof.Proof.Gen.Kernel.Skeleton
import proofs.«156524_g83305185673742_cont_9to1c4b_147_8_alg».proof.Proof.Gen.Kernel.Launch
import proofs.«156524_g83305185673742_cont_9to1c4b_147_8_alg».proof.Proof.Gen.Kernel.Points
import proofs.«156524_g83305185673742_cont_9to1c4b_147_8_alg».proof.Proof.Gen.Kernel.Frame
import proofs.«156524_g83305185673742_cont_9to1c4b_147_8_alg».proof.Proof.Gen.KernelIdeal
import proofs.«156524_g83305185673742_cont_9to1c4b_147_8_alg».proof.Proof.Gen.KernelIdeal.Skeleton
import proofs.«156524_g83305185673742_cont_9to1c4b_147_8_alg».proof.Proof.Gen.KernelIdeal.Launch
import proofs.«156524_g83305185673742_cont_9to1c4b_147_8_alg».proof.Proof.Gen.KernelIdeal.Points
import proofs.«156524_g83305185673742_cont_9to1c4b_147_8_alg».proof.Proof.Gen.KernelIdeal.Frame
import proofs.«156524_g83305185673742_cont_9to1c4b_147_8_alg».proof.Proof.Gen.ReferenceIdeal
import proofs.«156524_g83305185673742_cont_9to1c4b_147_8_alg».proof.Proof.Gen.Pre_finite_inputs
import Idealize.ShloMosaic.Adequacy
import Idealize.ShloMosaic.Init
import proofs.«156524_g83305185673742_cont_9to1c4b_147_8_alg».proof.Proof.Gen.ReferenceIdeal.Run
import proofs.«156524_g83305185673742_cont_9to1c4b_147_8_alg».proof.Proof.Gen.ReferenceIdeal.Read
import proofs.«156524_g83305185673742_cont_9to1c4b_147_8_alg».proof.Proof.Spec
import proofs.«156524_g83305185673742_cont_9to1c4b_147_8_alg».proof.Proof.SoftmaxLaw
import proofs.«156524_g83305185673742_cont_9to1c4b_147_8_alg».proof.Proof.FiniteInputs
import proofs.«156524_g83305185673742_cont_9to1c4b_147_8_alg».proof.Proof.RefValue
import proofs.«156524_g83305185673742_cont_9to1c4b_147_8_alg».proof.Proof.KernelValue

noncomputable section

namespace Cert.Proof

open Idealize.ShloMosaic Idealize.ShloMosaic.TcCoe Idealize.SL.Sem Cert.CrossAttn

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the eight arguments, all finite, both programs end with the result array at the attention
    function of the arguments: the kernel in its own arrangement, the reference in the other, equal on real entries. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.CrossAttn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6, r7⟩ := Cert.CrossAttn.real_of_finite_inputs _ _ _ _ _ _ _ _ (hpre c)
  obtain ⟨e0, e1, e2, e3, e4, e5, e6, e7⟩ := hagree c
  rw [Cert.ReferenceIdeal.Read.val_main_v25_eq, Cert.CrossAttn.Ref.ref_is_Gref, e0, e1, e2, e3, e4, e5, e6, e7]
  exact Cert.CrossAttn.Gref_eq_G _ _ _ _ _ _ _ _ r0 r1 r2 r3 r4 r5 r6 r7

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
